-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S10000x16 : Shape := ⟨2, ![10000, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S10000x16 : S_.BroadcastsInDim S10000x16 (![] : Fin 0 → Fin S10000x16.rank)
  reducesTo_S10000x16_S_d0_1 : S10000x16.ReducesTo [0, 1] S_

variable [Facts]

def fn_part1 {F : FTy → Type} [FloatOps F] (main_arg4 : FVec F S128x16 .f32) (main_arg5 : FVec F S16 .f32) (main_arg6 : FVec F S10000x16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S128x16 .f32 := Host.absf main_arg4
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S10000x16 .f32 := Host.absf main_arg6
  let main_cst_10 : FVec F S_ .f32 := constant S_ .f32 0x7F800000#32
  let main_v30 : FVec F S10000x16 .f32 := broadcastInDim S10000x16 ![] bcast_S_S10000x16 main_cst_10
  let main_v31 : IVec S10000x16 1 := cmpf .olt main_v29 main_v30
  let main_c_11 : IVec S_ 1 := constantI S_ 1 1#1
  let main_v32 : IVec S_ 1 := (fun x v => Host.reduce IntOp.andi x v reducesTo_S10000x16_S_d0_1 h_S_) main_v31 main_c_11
  let main_v33 : IVec S_ 1 := andi main_v28 main_v32
  main_v33

def fn {F : FTy → Type} [FloatOps F] (main_arg0 : FVec F S10000x128 .f32) (main_arg1 : FVec F S10000x10000 .f32) (main_arg2 : FVec F S128x16 .f32) (main_arg3 : FVec F S16 .f32) (main_arg4 : FVec F S128x16 .f32) (main_arg5 : FVec F S16 .f32) (main_arg6 : FVec F S10000x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S10000x16 : Shape := ⟨2, ![10000, 16]⟩
abbrev S128x32 : Shape := ⟨2, ![128, 32]⟩
abbrev S32 : Shape := ⟨1, ![32]⟩
abbrev S32x1 : Shape := ⟨2, ![32, 1]⟩
abbrev S16x10000 : Shape := ⟨2, ![16, 10000]⟩
abbrev S256x10000 : Shape := ⟨2, ![256, 10000]⟩
abbrev S256x16 : Shape := ⟨2, ![256, 16]⟩
abbrev S16x256 : Shape := ⟨2, ![16, 256]⟩
abbrev S10000x32 : Shape := ⟨2, ![10000, 32]⟩
abbrev S32x256 : Shape := ⟨2, ![32, 256]⟩

abbrev nBuf : Space → Nat
  | .hbm => 16
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S128x16, .f32⟩
  | .hbm, ⟨5, _⟩ => ⟨S16, .f32⟩
  | .hbm, ⟨6, _⟩ => ⟨S10000x16, .f32⟩
  | .hbm, ⟨7, _⟩ => ⟨S128x32, .f32⟩
  | .hbm, ⟨8, _⟩ => ⟨S32, .f32⟩
  | .hbm, ⟨9, _⟩ => ⟨S32x1, .f32⟩
  | .hbm, ⟨10, _⟩ => ⟨S16x10000, .f32⟩
  | .hbm, ⟨11, _⟩ => ⟨S16x10000, .f32⟩
  | .hbm, ⟨12, _⟩ => ⟨S16x10000, .f32⟩
  | .hbm, ⟨13, _⟩ => ⟨S10000x16, .f32⟩
  | .hbm, ⟨14, _⟩ => ⟨S10000x16, .f32⟩
  | .hbm, ⟨15, _⟩ => ⟨S10000x16, .f32⟩
  | .local _ .vmem, ⟨0, _⟩ => ⟨S256x10000, .f32⟩
  | .local _ .vmem, ⟨1, _⟩ => ⟨S256x10000, .f32⟩
  | .local _ .vmem, ⟨2, _⟩ => ⟨S10000x128, .f32⟩
  | .local _ .vmem, ⟨3, _⟩ => ⟨S128x32, .f32⟩
  | .local _ .vmem, ⟨4, _⟩ => ⟨S32x1, .f32⟩
  | .local _ .vmem, ⟨5, _⟩ => ⟨S256x16, .f32⟩
  | .local _ .vmem, ⟨6, _⟩ => ⟨S256x16, .f32⟩
  | .local _ .vmem, ⟨7, _⟩ => ⟨S16x256, .f32⟩
  | .local _ .vmem, ⟨8, _⟩ => ⟨S16x256, .f32⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S16x256, .f32⟩
  | .local _ .vmem, ⟨13, _⟩ => ⟨S10000x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S128x16_S128x16_S128x32_d1 : Shape.Concatenates [S128x16, S128x16] S128x32 1
  concatenates_S16_S16_S32_d0 : Shape.Concatenates [S16, S16] S32 0
  shapeCasts_S32_S32x1 : S32.ShapeCasts S32x1
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S256x10000_S256x10000_0_0 : ∀ a, (![0, 0] : Fin 2 → Nat) a + S256x10000.size a ≤ S256x10000.size a
  h_S256x10000 : 0 < S256x10000.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x256 : S32x1.Broadcasts S32x256
  slices_S32x256_o0_0_S16x256 : S32x256.Slices ![0, 0] S16x256
  slices_S32x256_o16_0_S16x256 : S32x256.Slices ![16, 0] S16x256
  inb_S16x256_S16x256_0_0 : ∀ a, (![0, 0] : Fin 2 → Nat) a + S16x256.size a ≤ S16x256.size a
  h_S16x256 : 0 < S16x256.numel
  inb_S256x16_S256x16_0_0 : ∀ a, (![0, 0] : Fin 2 → Nat) a + S256x16.size a ≤ S256x16.size a
  h_S256x16 : 0 < S256x16.numel
  transposes_S256x16_p1_0_S16x256 : S256x16.Transposes [1, 0] S16x256
  transposes_S16x10000_S10000x16_1_0 : S16x10000.Transposes [1, 0] S10000x16
  dot_S10000x128_S128x32_S10000x32_1_0_0_1_n_n_wf : DotDims.WF S10000x128 S128x32 S10000x32 [1] [0] [0] [1] [] []
  dot_S10000x32_S256x10000_S32x256_0_1_1_0_n_n_wf : DotDims.WF S10000x32 S256x10000 S32x256 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x10000.size a < S10000x10000.size a
  hwx0_0 : ∀ i : grid0.Coords, EltTy.bits .f32 = 32 ∨ (Rect.unit (s := S10000x10000) (fun a => cc0_transform_0 i a * S256x10000.size a) (fun a => (Pipeline.Clip.of (cc0_transform_0 i a) (S256x10000.size a) (S10000x10000.size a)).extent (S256x10000.size a)) fun a => Pipeline.Clip.inb (Pipeline.Clip.ok_of (hstart0_0 i a))).WholeWords (EltTy.packing .f32)
  hwxs0_0 : ∀ i : grid0.Coords, EltTy.bits .f32 = 32 ∨ (Rect.unit (s := S256x10000) (fun _ => 0) (fun a => (Pipeline.Clip.of (cc0_transform_0 i a) (S256x10000.size a) (S10000x10000.size a)).extent (S256x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S256x16.size a < S10000x16.size a
  hwx0_4 : ∀ i : grid0.Coords, EltTy.bits .f32 = 32 ∨ (Rect.unit (s := S10000x16) (fun a => cc0_transform_4 i a * S256x16.size a) (fun a => (Pipeline.Clip.of (cc0_transform_4 i a) (S256x16.size a) (S10000x16.size a)).extent (S256x16.size a)) fun a => Pipeline.Clip.inb (Pipeline.Clip.ok_of (hstart0_4 i a))).WholeWords (EltTy.packing .f32)
  hwxs0_4 : ∀ i : grid0.Coords, EltTy.bits .f32 = 32 ∨ (Rect.unit (s := S256x16) (fun _ => 0) (fun a => (Pipeline.Clip.of (cc0_transform_4 i a) (S256x16.size a) (S10000x16.size a)).extent (S256x16.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S16x256.size a < S16x10000.size a
  hwx0_5 : ∀ i : grid0.Coords, EltTy.bits .f32 = 32 ∨ (Rect.unit (s := S16x10000) (fun a => cc0_transform_5 i a * S16x256.size a) (fun a => (Pipeline.Clip.of (cc0_transform_5 i a) (S16x256.size a) (S16x10000.size a)).extent (S16x256.size a)) fun a => Pipeline.Clip.inb (Pipeline.Clip.ok_of (hstart0_5 i a))).WholeWords (EltTy.packing .f32)
  hwxs0_5 : ∀ i : grid0.Coords, EltTy.bits .f32 = 32 ∨ (Rect.unit (s := S16x256) (fun _ => 0) (fun a => (Pipeline.Clip.of (cc0_transform_5 i a) (S16x256.size a) (S16x10000.size a)).extent (S16x256.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S16x256.size a < S16x10000.size a
  hwx0_6 : ∀ i : grid0.Coords, EltTy.bits .f32 = 32 ∨ (Rect.unit (s := S16x10000) (fun a => cc0_transform_6 i a * S16x256.size a) (fun a => (Pipeline.Clip.of (cc0_transform_6 i a) (S16x256.size a) (S16x10000.size a)).extent (S16x256.size a)) fun a => Pipeline.Clip.inb (Pipeline.Clip.ok_of (hstart0_6 i a))).WholeWords (EltTy.packing .f32)
  hwxs0_6 : ∀ i : grid0.Coords, EltTy.bits .f32 = 32 ∨ (Rect.unit (s := S16x256) (fun _ => 0) (fun a => (Pipeline.Clip.of (cc0_transform_6 i a) (S16x256.size a) (S16x10000.size a)).extent (S16x256.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S16x256.size a < S16x10000.size a
  hwx0_7 : ∀ i : grid0.Coords, EltTy.bits .f32 = 32 ∨ (Rect.unit (s := S16x10000) (fun a => cc0_transform_7 i a * S16x256.size a) (fun a => (Pipeline.Clip.of (cc0_transform_7 i a) (S16x256.size a) (S16x10000.size a)).extent (S16x256.size a)) fun a => Pipeline.Clip.inb (Pipeline.Clip.ok_of (hstart0_7 i a))).WholeWords (EltTy.packing .f32)
  hwxs0_7 : ∀ i : grid0.Coords, EltTy.bits .f32 = 32 ∨ (Rect.unit (s := S16x256) (fun _ => 0) (fun a => (Pipeline.Clip.of (cc0_transform_7 i a) (S16x256.size a) (S16x10000.size a)).extent (S16x256.size a)) fun a => (Nat.zero_add _).trans_le (Pipeline.Clip.extent_le (Pipeline.Clip.ok_of (hstart0_7 i a)))).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x32_S256x10000_S32x256_0_1_1_0_n_n : DotDims S10000x32 S256x10000 S32x256 where
  lhsContracting := [0]
  rhsContracting := [1]
  lhsNonContracting := [1]
  rhsNonContracting := [0]
  lhsBatch := []
  rhsBatch := []
  wf := dot_S10000x32_S256x10000_S32x256_0_1_1_0_n_n_wf

abbrev win0_0 : Pipeline.Window sig grid0 :=
  Pipeline.Window.ofSpecClip (Memref.whole main_arg1) S256x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_arg6) S256x16.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v3_0) S16x256.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v3_1) S16x256.size cc0_transform_6 reads0_6 true false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_v3_2) S16x256.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S10000x16 : Shape := ⟨2, ![10000, 16]⟩
abbrev S1x16 : Shape := ⟨2, ![1, 16]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S128x16, .f32⟩
  | .hbm, ⟨5, _⟩ => ⟨S16, .f32⟩
  | .hbm, ⟨6, _⟩ => ⟨S10000x16, .f32⟩
  | .hbm, ⟨7, _⟩ => ⟨S10000x16, .f32⟩
  | .hbm, ⟨8, _⟩ => ⟨S10000x16, .f32⟩
  | .hbm, ⟨9, _⟩ => ⟨S1x16, .f32⟩
  | .hbm, ⟨10, _⟩ => ⟨S10000x16, .f32⟩
  | .hbm, ⟨11, _⟩ => ⟨S10000x16, .f32⟩
  | .hbm, ⟨12, _⟩ => ⟨S_, .f32⟩
  | .hbm, ⟨13, _⟩ => ⟨S10000x16, .f32⟩
  | .hbm, ⟨14, _⟩ => ⟨S10000x16, .f32⟩
  | .hbm, ⟨15, _⟩ => ⟨S10000x16, .f32⟩
  | .hbm, ⟨16, _⟩ => ⟨S10000x16, .f32⟩
  | .hbm, ⟨17, _⟩ => ⟨S1x16, .f32⟩
  | .hbm, ⟨18, _⟩ => ⟨S10000x16, .f32⟩
  | .hbm, ⟨19, _⟩ => ⟨S10000x16, .f32⟩
  | .hbm, ⟨20, _⟩ => ⟨S_, .f32⟩
  | .hbm, ⟨21, _⟩ => ⟨S10000x16, .f32⟩
  | .hbm, ⟨22, _⟩ => ⟨S10000x16, .f32⟩
  | .hbm, ⟨23, _⟩ => ⟨S10000x16, .f32⟩
  | .hbm, ⟨24, _⟩ => ⟨S10000x16, .f32⟩
  | .hbm, ⟨25, _⟩ => ⟨S10000x16, .f32⟩
  | .hbm, ⟨26, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.BRun.lean ====
/-
  The kernel body as one step of the pipeline, on any whole staging buffers.

  The body reads the adjacency block, the bias column and the noise block, and a 10000 x 32 scratch H. At the
  first grid point it first fills H with the product of the feature matrix and the concatenated weights; at every
  later point it finds H as the point before left it. It then writes three 16 x 256 blocks: the clamped first
  half of (H^T adj_block^T + bias), the exponential of half the clamped second half, and the first plus the
  second times the transposed noise block. Everything else it leaves as it found it.

  Both statements are for any float instance: nothing of the arithmetic is opened, the written blocks are the
  body's own payload terms of the loaded blocks.
-/
import proofs.«156628_g73332271612656_cont_9to1c4b_773_27_alg».proof.Proof.Gen.Kernel.Frame
import proofs.«156628_g73332271612656_cont_9to1c4b_773_27_alg».proof.Proof.Gen.Kernel.Skeleton
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's branch condition: the grid coordinate is 0. -/
abbrev cond0 (i : grid0.Coords) : Prop :=
  (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

theorem hz2 : (![0, 0] : Fin 2 → Nat) = fun _ => 0 := funext fun a => by fin_cases a <;> rfl

/-- A load of a whole buffer reads its contents. -/
theorem readAt_whole {S : Shape} {e : EltTy} {M : Memref sig .tc .vmem S e} (h : M.IsWhole) {off : Fin S.rank → Nat}
    (hoff : off = fun _ => 0) (inb : ∀ a, off a + S.size a ≤ S.size a) (X : S.Idx → Elt F e) :
    M.view.readAt (Elt F) (Rect.unit off S.size inb).toLoadRect (h.unread X) = X := by
  rw [View.readAt_eq_ld, h.read_unread]; exact View.ld_unit_zero hoff inb X

/-- A store over a whole buffer leaves its payload. -/
theorem read_store_whole {S : Shape} {e : EltTy} (v : View sig .tc .vmem S e) (f : v.ty.Contents (Elt F)) {off : Fin S.rank → Nat}
    (hoff : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, by
    subst hoff; show y ∈ (Rect.whole S).set; rw [Rect.set_whole]; exact Finset.mem_univ y⟩), View.canon_unit_zero hoff]

/-- A LATER point (the coordinate is not 0): the scratch is read, not written. -/
theorem run_later (c : Dev nD) (i : grid0.Coords)
    (arg1 : Memref sig .tc .vmem S256x10000 .f32) (harg1 : arg1.IsWhole) (arg2 : Memref sig .tc .vmem S10000x128 .f32) (harg2 : arg2.IsWhole)
    (arg3 : Memref sig .tc .vmem S128x32 .f32) (harg3 : arg3.IsWhole) (arg4 : Memref sig .tc .vmem S32x1 .f32) (harg4 : arg4.IsWhole)
    (arg5 : Memref sig .tc .vmem S256x16 .f32) (harg5 : arg5.IsWhole) (arg6 : Memref sig .tc .vmem S16x256 .f32) (harg6 : arg6.IsWhole)
    (arg7 : Memref sig .tc .vmem S16x256 .f32) (harg7 : arg7.IsWhole) (arg8 : Memref sig .tc .vmem S16x256 .f32) (harg8 : arg8.IsWhole)
    (arg9 : Memref sig .tc .vmem S10000x32 .f32) (harg9 : arg9.IsWhole) (hc : ¬cond0 i)
    (x1 : Vec F S256x10000 .f32) (x4 : Vec F S32x1 .f32) (x5 : Vec F S256x16 .f32) (xs : Vec F S10000x32 .f32)
    (E : Set ℕ) (K : PUnit → sProp 𝕄) :
    iprop(owns (c : Thread nD τ) arg1 fullShare x1 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare xs
        ∗ (iprop(owns (c : Thread nD τ) arg1 fullShare x1 ∗ owns (c : Thread nD τ) arg4 fullShare x4 ∗ owns (c : Thread nD τ) arg5 fullShare x5
            ∗ owns (c : Thread nD τ) arg6 fullShare (k0_pay5 xs x1 x4 x5) ∗ owns (c : Thread nD τ) arg7 fullShare (k0_pay3 xs x1 x4)
            ∗ owns (c : Thread nD τ) arg8 fullShare (k0_pay4 xs x1 x4) ∗ owns (c : Thread nD τ) arg9 fullShare xs) -∗ K ⟨⟩))
      ⊢ wp frame (wpE (defs₀ (F := F)) Variants.none c none) E
          (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  unfold owns
  iintro ⟨⟨%f1, %hf1, H1⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  obtain rfl := harg1.eq_unread hf1; obtain rfl := harg4.eq_unread hf4; obtain rfl := harg5.eq_unread hf5; obtain rfl := harg9.eq_unread hf9
  sl_exec (disch := exact hc)
  sl_step
  iapply Hk
  rw [readAt_whole harg1 hz2, readAt_whole harg4 hz2, readAt_whole harg5 hz2, readAt_whole harg9 hz2]
  isplitl [H1]
  · iexists _; isplitr; · ipureintro; exact harg1.read_unread _
    iexact H1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact read_store_whole _ f6 hz2 inb_S16x256_S16x256_0_0 _
    iexact H6
  isplitl [H7]
  · iexists _; isplitr; · ipureintro; exact read_store_whole _ f7 hz2 inb_S16x256_S16x256_0_0 _
    iexact H7
  isplitl [H8]
  · iexists _; isplitr; · ipureintro; exact read_store_whole _ f8 hz2 inb_S16x256_S16x256_0_0 _
    iexact H8
  · iexists _; isplitr; · ipureintro; exact harg9.read_unread _
    iexact H9

/-- The FIRST point (the coordinate is 0): the scratch is filled from the features and the weights, then read. -/
theorem run_first (c : Dev nD) (i : grid0.Coords)
    (arg1 : Memref sig .tc .vmem S256x10000 .f32) (harg1 : arg1.IsWhole) (arg2 : Memref sig .tc .vmem S10000x128 .f32) (harg2 : arg2.IsWhole)
    (arg3 : Memref sig .tc .vmem S128x32 .f32) (harg3 : arg3.IsWhole) (arg4 : Memref sig .tc .vmem S32x1 .f32) (harg4 : arg4.IsWhole)
    (arg5 : Memref sig .tc .vmem S256x16 .f32) (harg5 : arg5.IsWhole) (arg6 : Memref sig .tc .vmem S16x256 .f32) (harg6 : arg6.IsWhole)
    (arg7 : Memref sig .tc .vmem S16x256 .f32) (harg7 : arg7.IsWhole) (arg8 : Memref sig .tc .vmem S16x256 .f32) (harg8 : arg8.IsWhole)
    (arg9 : Memref sig .tc .vmem S10000x32 .f32) (harg9 : arg9.IsWhole) (hc : cond0 i)
    (x1 : Vec F S256x10000 .f32) (x2 : Vec F S10000x128 .f32) (x3 : Vec F S128x32 .f32) (x4 : Vec F S32x1 .f32) (x5 : Vec F S256x16 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (k0_pay5 (k0_pay1 x2 x3) x1 x4 x5) ∗ owns (c : Thread nD τ) arg7 fullShare (k0_pay3 (k0_pay1 x2 x3) x1 x4)
            ∗ owns (c : Thread nD τ) arg8 fullShare (k0_pay4 (k0_pay1 x2 x3) x1 x4) ∗ owns (c : Thread nD τ) arg9 fullShare (k0_pay1 x2 x3)) -∗ K ⟨⟩))
      ⊢ wp frame (wpE (defs₀ (F := F)) Variants.none c none) E
          (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg1.eq_unread hf1; obtain rfl := harg2.eq_unread hf2; obtain rfl := harg3.eq_unread hf3
  obtain rfl := harg4.eq_unread hf4; obtain rfl := harg5.eq_unread hf5
  sl_exec (disch := exact hc)
  sl_step
  iapply Hk
  sl_unfold_run_names
  rw [View.readCov_unit_zero (S := S10000x32) _ hz2,
    readAt_whole harg1 hz2, readAt_whole harg2 hz2, readAt_whole harg3 hz2, readAt_whole harg4 hz2, readAt_whole harg5 hz2]
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact read_store_whole _ f6 hz2 inb_S16x256_S16x256_0_0 _
    iexact H6
  isplitl [H7]
  · iexists _; isplitr; · ipureintro; exact read_store_whole _ f7 hz2 inb_S16x256_S16x256_0_0 _
    iexact H7
  isplitl [H8]
  · iexists _; isplitr; · ipureintro; exact read_store_whole _ f8 hz2 inb_S16x256_S16x256_0_0 _
    iexact H8
  · iexists _; isplitr; · ipureintro; exact read_store_whole _ f9 hz2 inb_S10000x32_S10000x32_0_0 _
    iexact H9

end Cert.Kernel.Hand

end
-- ==== Proof.BFrame.lean ====
/-
  The frame of the word-level program: every weakly fair execution terminates, nothing faults, and the seven argument
  arrays end as launched.

  The pipeline stages eight windows. The adjacency and noise windows, and the three result windows, have a last block
  that overhangs its array (40 blocks of 256 over 10000): a fetch of such a block leaves the buffer's tail at words
  nothing names, and the matrix product carries that tail into everything the body writes to the three result
  buffers. So the proof data say nothing of the three result windows: each is handed to the body at any contents and
  taken back at any contents. Of the five input windows the data are exact: the body only reads them, and an input
  array is never written back. The 10000 x 32 scratch is held between points at some contents: the first point fills
  it before reading it, every later point reads it at whatever it holds.

  After the region three transposes write the three results; they read the result arrays and write only their own
  buffers, so the arguments — three of them input windows' arrays, four bypassing the pipeline — end unchanged.
-/
import proofs.«156628_g73332271612656_cont_9to1c4b_773_27_alg».proof.Proof.BRun
import proofs.«156628_g73332271612656_cont_9to1c4b_773_27_alg».proof.Proof.Gen.Kernel.Points
import proofs.«156628_g73332271612656_cont_9to1c4b_773_27_alg».proof.Proof.Gen.Kernel.Launch
import proofs.«156628_g73332271612656_cont_9to1c4b_773_27_alg».proof.Proof.Gen.Pre_finite_inputs
import proofs.«156628_g73332271612656_cont_9to1c4b_773_27_alg».proof.Defs
import Idealize.ShloMosaic.Lib.Pipeline.FrameSuffix
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A filler for the part of a buffer no transfer moves, and for the windows the data say nothing of. -/
abbrev zw {S : Shape} : S.Idx → Elt F .f32 := fun _ => Scalar.ofBits .f32 0#32

/-- The proof data: the arrays as the region finds them; after the body the adjacency and noise buffers hold their
    block on the rows inside the array, the features, the weights and the bias column their whole blocks; of the three
    result windows nothing is said (their entries are fillers no statement reads). The invariant is the scratch at
    some contents. -/
def datsB (c : Dev nD) : Dat τ (Elt F) Unit ℕ (UR sig nD τ) ℕ cfg0 c where
  A w := V m c (Pipeline.arrRef spec0 w)
  after w t := match w with
    | ⟨0, _⟩ => (cfg0.win 0).fill (grid0.coords t) zw (iblk m c 0 t)
    | ⟨1, _⟩ => iblk m c 1 t
    | ⟨2, _⟩ => iblk m c 2 t
    | ⟨3, _⟩ => iblk m c 3 t
    | ⟨4, _⟩ => (cfg0.win 4).fill (grid0.coords t) zw (iblk m c 4 t)
    | ⟨5, _⟩ => zw
    | ⟨6, _⟩ => zw
    | ⟨7, _⟩ => zw
  Φ _ := Pipeline.ΦA spec0 c
  q _ := fullShare
  owed _ := 0

theorem A_eq (c : Dev nD) (w : Fin cfg0.W) : (datsB m c).A w = V m c (Pipeline.arrRef spec0 w) := by
  dsimp only [datsB]

theorem after_0 (c : Dev nD) (t : Fin cfg0.N) :
    (datsB m c).after 0 t = (cfg0.win 0).fill (grid0.coords t) zw (iblk m c 0 t) := by dsimp only [datsB]
theorem after_1 (c : Dev nD) (t : Fin cfg0.N) : (datsB m c).after 1 t = iblk m c 1 t := by dsimp only [datsB]
theorem after_2 (c : Dev nD) (t : Fin cfg0.N) : (datsB m c).after 2 t = iblk m c 2 t := by dsimp only [datsB]
theorem after_3 (c : Dev nD) (t : Fin cfg0.N) : (datsB m c).after 3 t = iblk m c 3 t := by dsimp only [datsB]
theorem after_4 (c : Dev nD) (t : Fin cfg0.N) :
    (datsB m c).after 4 t = (cfg0.win 4).fill (grid0.coords t) zw (iblk m c 4 t) := by dsimp only [datsB]

/-! ## What the body finds in each staging buffer -/

/-- The adjacency buffer, fetched at every point: the block on the rows inside the array, d elsewhere. -/
theorem before_0 (c : Dev nD) (t : Fin cfg0.N) (d) :
    (datsB m c).before 0 t d = (cfg0.win 0).fill (grid0.coords t) d (iblk m c 0 t) := by
  rw [(datsB m c).before_fetched 0 t (fetch0_0 t) d]; unfold Dat.fetched Dat.blockOf; rw [A_eq]; rfl
theorem before_1 (c : Dev nD) (t : Fin cfg0.N) (d) : (datsB m c).before 1 t d = iblk m c 1 t :=
  before0_1_of m (datsB m c) (A_eq m c 1) (after_1 m c) t d
theorem before_2 (c : Dev nD) (t : Fin cfg0.N) (d) : (datsB m c).before 2 t d = iblk m c 2 t :=
  before0_2_of m (datsB m c) (A_eq m c 2) (after_2 m c) t d
theorem before_3 (c : Dev nD) (t : Fin cfg0.N) (d) : (datsB m c).before 3 t d = iblk m c 3 t :=
  before0_3_of m (datsB m c) (A_eq m c 3) (after_3 m c) t d
/-- The noise buffer, fetched at every point. -/
theorem before_4 (c : Dev nD) (t : Fin cfg0.N) (d) :
    (datsB m c).before 4 t d = (cfg0.win 4).fill (grid0.coords t) d (iblk m c 4 t) := by
  rw [(datsB m c).before_fetched 4 t (fetch0_4 t) d]; unfold Dat.fetched Dat.blockOf; rw [A_eq]; rfl

/-- The windows the data forget: the three results. -/
def fgt : Fin cfg0.W → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true

/-- The scratch operand. -/
abbrev scM : Memref sig .tc .vmem S10000x32 .f32 := Memref.whole cc0_scratch0

theorem fgt_0 : fgt 0 = false := rfl
theorem fgt_1 : fgt 1 = false := rfl
theorem fgt_2 : fgt 2 = false := rfl
theorem fgt_3 : fgt 3 = false := rfl
theorem fgt_4 : fgt 4 = false := rfl
theorem fgt_5 : fgt 5 = true := rfl
theorem fgt_6 : fgt 6 = true := rfl
theorem fgt_7 : fgt 7 = true := rfl

/-- The blocks the body finds, at their literal types. -/
abbrev bAdj (c : Dev nD) (t : Fin cfg0.N) (d : Vec F S256x10000 .f32) : Vec F S256x10000 .f32 :=
  (cfg0.win 0).fill (grid0.coords t) d (iblk m c 0 t)
abbrev bX (c : Dev nD) (t : Fin cfg0.N) : Vec F S10000x128 .f32 := iblk m c 1 t
abbrev bW (c : Dev nD) (t : Fin cfg0.N) : Vec F S128x32 .f32 := iblk m c 2 t
abbrev bB (c : Dev nD) (t : Fin cfg0.N) : Vec F S32x1 .f32 := iblk m c 3 t
abbrev bEps (c : Dev nD) (t : Fin cfg0.N) (d : Vec F S256x16 .f32) : Vec F S256x16 .f32 :=
  (cfg0.win 4).fill (grid0.coords t) d (iblk m c 4 t)

/-- The scratch at named contents is the scratch at some contents. -/
theorem scratch_some (c : Dev nD) (Y : Vec F S10000x32 .f32) :
    owns (c : Thread nD τ) scM fullShare Y
      ⊢ (iprop(∃ f : Buf (Elt F) ((c : Thread nD τ).loc cc0_scratch0), ((c : Thread nD τ).loc cc0_scratch0) ↦{fullShare} f) : sProp 𝕄) := by
  rw [owns_whole]; iintro H; iexists _; iexact H

/-- The body at point t on the current staging buffers: from the five input buffers at their blocks, the three result
    buffers and the scratch at any contents, it runs and hands back the input buffers as they were, the result buffers
    and the scratch at some contents. At the first point it fills the scratch before reading it; at a later point it
    reads the scratch at whatever it holds. -/
theorem sound_body (c : Dev nD) (t : Fin cfg0.N) (fs : Buf (Elt F) ((c : Thread nD τ).loc cc0_scratch0))
    (d0 : Vec F S256x10000 .f32) (d4 : Vec F S256x16 .f32) (K : PUnit → sProp 𝕄) :
    iprop((((c : Thread nD τ).loc cc0_scratch0) ↦{fullShare} fs)
        ∗ owns (c : Thread nD τ) (st0_0 t) fullShare (bAdj m c t d0)
        ∗ owns (c : Thread nD τ) (st0_1 t) fullShare (bX m c t)
        ∗ owns (c : Thread nD τ) (st0_2 t) fullShare (bW m c t)
        ∗ owns (c : Thread nD τ) (st0_3 t) fullShare (bB m c t)
        ∗ owns (c : Thread nD τ) (st0_4 t) fullShare (bEps m c t d4)
        ∗ (∃ X, owns (c : Thread nD τ) (st0_5 t) fullShare X)
        ∗ (∃ X, owns (c : Thread nD τ) (st0_6 t) fullShare X)
        ∗ (∃ X, owns (c : Thread nD τ) (st0_7 t) fullShare X)
        ∗ (iprop((∃ f : Buf (Elt F) ((c : Thread nD τ).loc cc0_scratch0), ((c : Thread nD τ).loc cc0_scratch0) ↦{fullShare} f)
            ∗ owns (c : Thread nD τ) (st0_0 t) fullShare (bAdj m c t d0)
            ∗ owns (c : Thread nD τ) (st0_1 t) fullShare (bX m c t)
            ∗ owns (c : Thread nD τ) (st0_2 t) fullShare (bW m c t)
            ∗ owns (c : Thread nD τ) (st0_3 t) fullShare (bB m c t)
            ∗ owns (c : Thread nD τ) (st0_4 t) fullShare (bEps m c t d4)
            ∗ (∃ X, owns (c : Thread nD τ) (st0_5 t) fullShare X)
            ∗ (∃ X, owns (c : Thread nD τ) (st0_6 t) fullShare X)
            ∗ (∃ X, owns (c : Thread nD τ) (st0_7 t) fullShare X)) -∗ K ⟨⟩))
      ⊢ wp frame (wpE (defs₀ (F := F)) Variants.none c none) Set.univ (bodyAt0 t) K := by
  rw [← owns_whole (c : Thread nD τ) cc0_scratch0 fullShare fs]
  by_cases h0 : t.val = 0
  · iintro ⟨Hs, H0, H1, H2, H3, H4, H5, H6, H7, Hk⟩
    iapply (run_first (F := F) c (grid0.coords t)
      (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      (win0_5.stage (cfg0.slots t 5)) (hstage0_5 ((cfg0.slots t 5).cast nbuf0_5))
      (win0_6.stage (cfg0.slots t 6)) (hstage0_6 ((cfg0.slots t 6).cast nbuf0_6))
      (win0_7.stage (cfg0.slots t 7)) (hstage0_7 ((cfg0.slots t 7).cast nbuf0_7))
      (Memref.whole cc0_scratch0) (Memref.isWhole_whole _) ((hcond0 t).mpr h0)
      (bAdj m c t d0) (bX m c t) (bW m c t) (bB m c t) (bEps m c t d4) Set.univ K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hs]; · iexists fs; iexact Hs
    iintro ⟨H0, H1, H2, H3, H4, H5, H6, H7, Hs⟩
    iapply Hk
    isplitl [Hs]; · iapply (scratch_some (F := F) c _); iexact Hs
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    · iexists _; iexact H7
  · iintro ⟨Hs, H0, H1, H2, H3, H4, H5, H6, H7, Hk⟩
    iapply (run_later (F := F) c (grid0.coords t)
      (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      (win0_5.stage (cfg0.slots t 5)) (hstage0_5 ((cfg0.slots t 5).cast nbuf0_5))
      (win0_6.stage (cfg0.slots t 6)) (hstage0_6 ((cfg0.slots t 6).cast nbuf0_6))
      (win0_7.stage (cfg0.slots t 7)) (hstage0_7 ((cfg0.slots t 7).cast nbuf0_7))
      (Memref.whole cc0_scratch0) (Memref.isWhole_whole _) (fun h => h0 ((hcond0 t).mp h))
      (bAdj m c t d0) (bB m c t) (bEps m c t d4) fs Set.univ K)
    isplitl [H0]; · iexact H0
    isplitl [H3]; · iexact H3
    isplitl [H4]; · iexact H4
    isplitl [H5]; · iexact H5
    isplitl [H6]; · iexact H6
    isplitl [H7]; · iexact H7
    isplitl [Hs]; · iexact Hs
    iintro ⟨H0, H3, H4, H5, H6, H7, Hs⟩
    iapply Hk
    isplitl [Hs]; · iapply (scratch_some (F := F) c _); iexact Hs
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    · iexists _; iexact H7

/-- The body obligation with the three result windows forgotten: the body reads the five input buffers and leaves
    them as it found them, writes the three result buffers (whose contents are not named) and the scratch (which the
    invariant holds at some contents). -/
theorem body_obligation (c : Dev nD) :
    BodyObligationLoose (datsB m c) (defs₀ (F := F)) Variants.none () Set.univ fgt := fun t => by
  rw [bigSep_W0, bigSep_W0]
  simp only [fgt_0, fgt_1, fgt_2, fgt_3, fgt_4, fgt_5, fgt_6, fgt_7]
  rw [show (datsB m c).Φ t.succ = (datsB m c).Φ t.castSucc from rfl,
    show (datsB m c).owesAt () t.succ = (datsB m c).owesAt () t.castSucc from rfl,
    show (datsB m c).Φ t.castSucc = Pipeline.ΦA spec0 c from rfl]
  unfold Pipeline.ΦA; rw [scopedRest0_eq]
  rw [after_0, after_1, after_2, after_3, after_4, (cfg0.win 0).cut_fill, (cfg0.win 4).cut_fill]
  show _ ⊢ wp frame (wpE defs₀ Variants.none c none) Set.univ (bodyAt0 t) _
  iintro ⟨⟨⟨%fs, Hs⟩, Hg⟩, Ho, ⟨%d0, H0⟩, ⟨%d1, H1⟩, ⟨%d2, H2⟩, ⟨%d3, H3⟩, ⟨%d4, H4⟩, H5, H6, H7⟩
  rw [before_0 m c t d0, before_1 m c t d1, before_2 m c t d2, before_3 m c t d3, before_4 m c t d4]
  iapply (sound_body (F := F) m c t fs d0 d4 _)
  isplitl [Hs]; · iexact Hs
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨Hs, H0, H1, H2, H3, H4, H5, H6, H7⟩
  isplitl [Hs Hg]
  · isplitl [Hs]
    · iexact Hs
    · iexact Hg
  isplitl [Ho]; · iexact Ho
  isplitl [H0]; · iexists d0; iexact H0
  isplitl [H1]; · iexact H1
  isplitl [H2]; · iexact H2
  isplitl [H3]; · iexact H3
  isplitl [H4]; · iexists d4; iexact H4
  isplitl [H5]; · iexact H5
  isplitl [H6]; · iexact H6
  · iexact H7

/-! ## The launch -/

/-- The buffers the lines after the region write: the three results, transposed back. -/
abbrev T : Finset (Ref sig .tc) := {main_v4, main_v5, main_v6}

/-- Each of those lines writes only its own result buffer. -/
theorem sfx_T : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl
  all_goals
    intro b hb
    simp only [StableHlo.unary_writes, Finset.mem_singleton] at hb
    obtain rfl := Proc.devRef_injective (τ := τ) _ hb
    decide

set_option backward.isDefEq.respectTransparency.types false in
/-- At the compiled mesh, for any float values, from any memory with zero counters: every weakly fair execution of
    @main on the TensorCores terminates, and in every final state each array of the pipeline holds some contents it
    may hold after every write-back (an input array: what the region found there) and every other unscoped buffer
    the later lines do not write holds what the region found there. -/
theorem run_main : θ_run defs (onTc (τ := τ) (main (F := F))) (s₀ m ρ)
    (Pipeline.RDat.FramePostR cfg0 (fun c => (datsB m c).toRForget fgt) T (fun c b => V0 m c (Proc.devRef .tc b))) :=
  Pipeline.RDat.θ_run_frame_around_T cfgs (0 : Fin 1) launch0 defs₀ Variants.none (fun c => (datsB m c).toRForget fgt) T m ρ main
    (hbody := fun c => (body_obligation m c).toRForget)
    (hshare := fun c => (datsB m c).share_full fun _ => rfl) (howed := fun _ _ => rfl)
    (V₀ := V0 m) (opss := [hostOps1]) (hsub := sfx_sub) (hfresh := sfx_fresh) (hkeep := sfx_keeps) (hT := sfx_T)
    (hmain := hmain m Variants.none) (hA := fun c w => A_eq m c w) (hΦ := fun _ _ => rfl)

/-! ## The frame -/

/-- THE FRAME of the word-level program: it runs, and its seven argument arrays end as launched. The features, the
    adjacency and the noise are input windows of the pipeline, never written back; the two weight matrices and the two
    bias vectors bypass the pipeline and no later line writes them. -/
theorem frame_kernel : @Cert.frame_Kernel Cert.Kernel.Gen.facts Cert.Pre_finite_inputs.Gen.facts := by
  intro m g _
  exact (θ_run defs _ _).mono (fun r h c =>
    ⟨(h.arr_in c 1 rfl).trans ((A_eq m c 1).trans (V_main_arg0 m c)),
     (h.arr_in c 0 rfl).trans ((A_eq m c 0).trans (V_main_arg1 m c)),
     ((h c).2 main_arg2 (Finset.mem_sdiff.mpr ⟨Pipeline.mem_restRefs_of main_arg2 (by decide) (by decide), by decide⟩)).trans (V_main_arg2 m c),
     ((h c).2 main_arg3 (Finset.mem_sdiff.mpr ⟨Pipeline.mem_restRefs_of main_arg3 (by decide) (by decide), by decide⟩)).trans (V_main_arg3 m c),
     ((h c).2 main_arg4 (Finset.mem_sdiff.mpr ⟨Pipeline.mem_restRefs_of main_arg4 (by decide) (by decide), by decide⟩)).trans (V_main_arg4 m c),
     ((h c).2 main_arg5 (Finset.mem_sdiff.mpr ⟨Pipeline.mem_restRefs_of main_arg5 (by decide) (by decide), by decide⟩)).trans (V_main_arg5 m c),
     (h.arr_in c 4 rfl).trans ((A_eq m c 4).trans (V_main_arg6 m c))⟩) (run_main (F := Bits) m g)

end Cert.Kernel.Hand

end
-- ==== Proof.Spec.lean ====
/-
  The mathematics both programs compute, on the extended reals, entry by entry.

  With x : [10000, 128], adj : [10000, 10000], W1, W2 : [128, 16], b1, b2 : [16], eps : [10000, 16]:
    (x W)[k, j]    = sum over f of x[k, f] * W[f, j]
    pre(W, b)[i, j] = (sum over k of adj[i, k] * (x W)[k, j]) + b[j]
    mu[i, j]  = max(pre(W1, b1)[i, j], 0)
    sd[i, j]  = sqrt(exp(max(pre(W2, b2)[i, j], 0)))
    z[i, j]   = mu[i, j] + sd[i, j] * eps[i, j]
  The three results are z, mu, sd as [10000, 16] arrays; the transposed [16, 10000] forms are what a
  column-blocked computation writes before it is transposed back.

  One law is needed beyond commutativity of the product: exp(v / 2) = sqrt(exp v), which holds for EVERY extended
  real v (at bottom both sides are 0, at top both are top, on a real it is the real identity), so no hypothesis
  on the inputs is used.
-/
import Idealize.ShloMosaic.PureOps.Ideal
import Idealize.ShloMosaic.PureOps.Ideal.Laws
import Idealize.ShloMosaic.Lib.ValueIdx
import Mathlib.Analysis.SpecialFunctions.Exp

noncomputable section

namespace Cert.Spec

open Idealize.ShloMosaic Idealize.ShloMosaic.ValueIdx

abbrev Sx : Shape := ⟨2, ![10000, 128]⟩
abbrev Sadj : Shape := ⟨2, ![10000, 10000]⟩
abbrev SW : Shape := ⟨2, ![128, 16]⟩
abbrev Sb : Shape := ⟨1, ![16]⟩
abbrev Sout : Shape := ⟨2, ![10000, 16]⟩
abbrev SoutT : Shape := ⟨2, ![16, 10000]⟩

variable (adj : FVec Ideal Sadj .f32) (x : FVec Ideal Sx .f32) (W1 : FVec Ideal SW .f32) (b1 : FVec Ideal Sb .f32)
  (W2 : FVec Ideal SW .f32) (b2 : FVec Ideal Sb .f32) (eps : FVec Ideal Sout .f32)

/-- (x W)[k, j]. -/
def xw (W : FVec Ideal SW .f32) (k : Fin 10000) (j : Fin 16) : EReal := ∑ f : Fin 128, x (ix2 k f) * W (ix2 f j)

/-- (adj (x W) + b)[i, j]. -/
def pre (W : FVec Ideal SW .f32) (b : FVec Ideal Sb .f32) (i : Fin 10000) (j : Fin 16) : EReal :=
  (∑ k : Fin 10000, adj (ix2 i k) * xw x W k j) + b (ix1 j)

/-- The mean: the first layer's pre-activation clamped below at 0. -/
def mu (i : Fin 10000) (j : Fin 16) : EReal := max (pre adj x W1 b1 i j) 0

/-- The standard deviation: the square root of the exponential of the clamped second pre-activation. -/
def sd (i : Fin 10000) (j : Fin 16) : EReal := Ideal.sqrt (Ideal.exp (max (pre adj x W2 b2 i j) 0))

/-- The sample: mean plus deviation times the noise. -/
def z (i : Fin 10000) (j : Fin 16) : EReal := mu adj x W1 b1 i j + sd adj x W2 b2 i j * eps (ix2 i j)

/-- The results as [10000, 16] arrays. -/
def Z : FVec Ideal Sout .f32 := fun y => z adj x W1 b1 W2 b2 eps (y 0) (y 1)
def Mu : FVec Ideal Sout .f32 := fun y => mu adj x W1 b1 (y 0) (y 1)
def Sd : FVec Ideal Sout .f32 := fun y => sd adj x W2 b2 (y 0) (y 1)

/-- The same as [16, 10000] arrays (feature major). -/
def ZT : FVec Ideal SoutT .f32 := fun y => z adj x W1 b1 W2 b2 eps (y 1) (y 0)
def MuT : FVec Ideal SoutT .f32 := fun y => mu adj x W1 b1 (y 1) (y 0)
def SdT : FVec Ideal SoutT .f32 := fun y => sd adj x W2 b2 (y 1) (y 0)

/-- The binary32 word 0x3F000000 is one half. -/
theorem ofBits_half : Ideal.ofBits .f32 0x3F000000#32 = ((1 / 2 : ℝ) : EReal) := by
  simp [Ideal.ofBits, Ideal.ieee]
  rw [← EReal.coe_mul, EReal.coe_eq_coe_iff]
  norm_num

/-- exp(v / 2) = sqrt(exp v) on every extended real. -/
theorem exp_half (v : EReal) : Ideal.exp (((1 / 2 : ℝ) : EReal) * v) = Ideal.sqrt (Ideal.exp v) := by
  induction v using EReal.rec with
  | bot =>
    -- (1/2) * bottom = bottom since 1/2 > 0; exp bottom = 0 and sqrt 0 = 0
    rw [EReal.coe_mul_bot_of_pos (by norm_num : (0 : ℝ) < 1 / 2), Ideal.exp_bot, ← EReal.coe_zero, Ideal.sqrt_coe,
      if_neg (lt_irrefl 0), Real.sqrt_zero]
  | top =>
    rw [EReal.coe_mul_top_of_pos (by norm_num : (0 : ℝ) < 1 / 2), Ideal.exp_top, Ideal.sqrt_top]
  | coe r =>
    -- on a real: exp r > 0, so the square root is the real one, and exp (r / 2) = sqrt (exp r)
    rw [← EReal.coe_mul, Ideal.exp_coe, Ideal.exp_coe, Ideal.sqrt_coe, if_neg (not_lt.mpr (Real.exp_pos r).le),
      ← Real.exp_half, one_div, inv_mul_eq_div]

end Cert.Spec

end
-- ==== Proof.KData.lean ====
/-
  The proof data of the one pipeline at the ideal instance.

  Arrays: as the region finds them. After the body at point t: the adjacency and noise windows (whose last blocks
  overhang their arrays) hold their block on the rows inside the array — the body only reads them —; the features,
  the concatenated weights and the bias column hold their whole blocks; the three result windows hold, on the columns
  inside the array, block t of the specification's z, mu and sd in feature-major form. Between points the body keeps
  H = x·[W1|W2] in its scratch: before the first point the scratch holds anything, after it H.
-/
import proofs.«156628_g73332271612656_cont_9to1c4b_773_27_alg».proof.Proof.Gen.KernelIdeal.Frame
import proofs.«156628_g73332271612656_cont_9to1c4b_773_27_alg».proof.Proof.Gen.KernelIdeal.Skeleton
import proofs.«156628_g73332271612656_cont_9to1c4b_773_27_alg».proof.Proof.Spec
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

local notation "𝕀" => MT nD τ sig Unit (Elt Ideal) ℕ (UR sig nD τ) ℕ

/-- The first grid point. -/
abbrev t0 : Fin cfg0.N := ⟨0, by decide⟩

/-! ## The arrays the region finds, as the specification's arguments -/

abbrev aAdj (c : Dev nD) : FVec Ideal Cert.Spec.Sadj .f32 := V m c main_arg1
abbrev aX (c : Dev nD) : FVec Ideal Cert.Spec.Sx .f32 := V m c main_arg0
abbrev aW1 (c : Dev nD) : FVec Ideal Cert.Spec.SW .f32 := V m c main_arg2
abbrev ab1 (c : Dev nD) : FVec Ideal Cert.Spec.Sb .f32 := V m c main_arg3
abbrev aW2 (c : Dev nD) : FVec Ideal Cert.Spec.SW .f32 := V m c main_arg4
abbrev ab2 (c : Dev nD) : FVec Ideal Cert.Spec.Sb .f32 := V m c main_arg5
abbrev aEps (c : Dev nD) : FVec Ideal Cert.Spec.Sout .f32 := V m c main_arg6

/-- The three results in feature-major form, as contents of the kernel's three result arrays. -/
def ZTa (c : Dev nD) : Vec Ideal S16x10000 .f32 := Cert.Spec.ZT (aAdj m c) (aX m c) (aW1 m c) (ab1 m c) (aW2 m c) (ab2 m c) (aEps m c)
def MuTa (c : Dev nD) : Vec Ideal S16x10000 .f32 := Cert.Spec.MuT (aAdj m c) (aX m c) (aW1 m c) (ab1 m c)
def SdTa (c : Dev nD) : Vec Ideal S16x10000 .f32 := Cert.Spec.SdT (aAdj m c) (aX m c) (aW2 m c) (ab2 m c)

/-! ## The blocks the body finds, at their literal types -/

/-- The features, the concatenated weights and the bias column: whole arrays, one block each. -/
abbrev blkX (c : Dev nD) (t : Fin cfg0.N) : Vec Ideal S10000x128 .f32 := iblk m c 1 t
abbrev blkW (c : Dev nD) (t : Fin cfg0.N) : Vec Ideal S128x32 .f32 := iblk m c 2 t
abbrev blkB (c : Dev nD) (t : Fin cfg0.N) : Vec Ideal S32x1 .f32 := iblk m c 3 t
/-- The adjacency and noise buffers after the fetch at t: the block on the rows inside the array, d elsewhere. -/
abbrev bufAdj (c : Dev nD) (t : Fin cfg0.N) (d : Vec Ideal S256x10000 .f32) : Vec Ideal S256x10000 .f32 :=
  (cfg0.win 0).fill (grid0.coords t) d (iblk m c 0 t)
abbrev bufEps (c : Dev nD) (t : Fin cfg0.N) (d : Vec Ideal S256x16 .f32) : Vec Ideal S256x16 .f32 :=
  (cfg0.win 4).fill (grid0.coords t) d (iblk m c 4 t)

/-- What the scratch holds from the first point on: the product of the features and the concatenated weights. -/
def Hs (c : Dev nD) : Vec Ideal S10000x32 .f32 := k0_pay1 (F := Ideal) (blkX m c t0) (blkW m c t0)

/-- The scratch operand. -/
abbrev scM : Memref sig .tc .vmem S10000x32 .f32 := Memref.whole cc0_scratch0

/-- The invariant between points: before the first point the scratch at anything; afterwards at H. -/
def PhiH (c : Dev nD) (t : Fin (cfg0.N + 1)) : sProp 𝕀 :=
  if t.val = 0 then Pipeline.ΦA spec0 c
  else iprop(owns (c : Thread nD τ) scM fullShare (Hs m c) ∗ (∃ r, prngReg c r))

/-- A filler for the part of a buffer no transfer moves (nothing reads it). -/
abbrev zf {S : Shape} : S.Idx → Elt Ideal .f32 := fun _ => (0 : EReal)

/-- The proof data. -/
def dats (_ : Fin 1) (c : Dev nD) : Dat τ (Elt Ideal) Unit ℕ (UR sig nD τ) ℕ cfg0 c where
  A w := V m c (Pipeline.arrRef spec0 w)
  after w t := match w with
    | ⟨0, _⟩ => bufAdj m c t zf
    | ⟨1, _⟩ => iblk m c 1 t
    | ⟨2, _⟩ => iblk m c 2 t
    | ⟨3, _⟩ => iblk m c 3 t
    | ⟨4, _⟩ => bufEps m c t zf
    | ⟨5, _⟩ => (cfg0.win 5).fill (grid0.coords t) zf (((cfg0.win 5).blk t).view.read (Elt Ideal) (ZTa m c))
    | ⟨6, _⟩ => (cfg0.win 6).fill (grid0.coords t) zf (((cfg0.win 6).blk t).view.read (Elt Ideal) (MuTa m c))
    | ⟨7, _⟩ => (cfg0.win 7).fill (grid0.coords t) zf (((cfg0.win 7).blk t).view.read (Elt Ideal) (SdTa m c))
  Φ t := PhiH m c t
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = bufAdj m c t zf := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = bufEps m c t zf := by dsimp only [dats]
theorem after_5 (c : Dev nD) (t : Fin cfg0.N) :
    (dats m 0 c).after 5 t = (cfg0.win 5).fill (grid0.coords t) zf (((cfg0.win 5).blk t).view.read (Elt Ideal) (ZTa m c)) := by dsimp only [dats]
theorem after_6 (c : Dev nD) (t : Fin cfg0.N) :
    (dats m 0 c).after 6 t = (cfg0.win 6).fill (grid0.coords t) zf (((cfg0.win 6).blk t).view.read (Elt Ideal) (MuTa m c)) := by dsimp only [dats]
theorem after_7 (c : Dev nD) (t : Fin cfg0.N) :
    (dats m 0 c).after 7 t = (cfg0.win 7).fill (grid0.coords t) zf (((cfg0.win 7).blk t).view.read (Elt Ideal) (SdTa m c)) := by dsimp only [dats]

/-- What each write-back writes: block t of the specification's arrays. -/
theorem flushed_5 (c : Dev nD) (t : Fin cfg0.N) : (dats m 0 c).flushed 5 t = ((cfg0.win 5).blk t).view.read (Elt Ideal) (ZTa m c) := by
  unfold Dat.flushed; rw [after_5]; exact (cfg0.win 5).cut_fill _ _ _
theorem flushed_6 (c : Dev nD) (t : Fin cfg0.N) : (dats m 0 c).flushed 6 t = ((cfg0.win 6).blk t).view.read (Elt Ideal) (MuTa m c) := by
  unfold Dat.flushed; rw [after_6]; exact (cfg0.win 6).cut_fill _ _ _
theorem flushed_7 (c : Dev nD) (t : Fin cfg0.N) : (dats m 0 c).flushed 7 t = ((cfg0.win 7).blk t).view.read (Elt Ideal) (SdTa m c) := by
  unfold Dat.flushed; rw [after_7]; exact (cfg0.win 7).cut_fill _ _ _

/-! ## What the body finds in each staging buffer -/

theorem before_0 (c : Dev nD) (t : Fin cfg0.N) (d) : (dats m 0 c).before 0 t d = bufAdj m c t d := by
  rw [(dats m 0 c).before_fetched 0 t (fetch0_0 t) d]; unfold Dat.fetched Dat.blockOf; rw [A_eq]; rfl
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = bufEps m c t d := by
  rw [(dats m 0 c).before_fetched 4 t (fetch0_4 t) d]; unfold Dat.fetched Dat.blockOf; rw [A_eq]; rfl

/-- A result window's buffer is fresh at every point: the first, or just written back. -/
theorem out_fresh (w : Fin cfg0.W) (hfl : ∀ t : Fin cfg0.N, (cfg0.win w).flush t = true) (t : Fin cfg0.N) :
    t.val = 0 ∨ ∃ _ : t.val ≠ 0, (cfg0.win w).flush ⟨t.val - 1, Nat.lt_of_le_of_lt (Nat.sub_le _ _) t.isLt⟩ = true := by
  by_cases h : t.val = 0
  · exact .inl h
  · exact .inr ⟨h, hfl _⟩
theorem before_5 (c : Dev nD) (t : Fin cfg0.N) (d) : (dats m 0 c).before 5 t d = d :=
  (dats m 0 c).before_out_reset 5 rfl t (out_fresh 5 flush0_5 t) d
theorem before_6 (c : Dev nD) (t : Fin cfg0.N) (d) : (dats m 0 c).before 6 t d = d :=
  (dats m 0 c).before_out_reset 6 rfl t (out_fresh 6 flush0_6 t) d
theorem before_7 (c : Dev nD) (t : Fin cfg0.N) (d) : (dats m 0 c).before 7 t d = d :=
  (dats m 0 c).before_out_reset 7 rfl t (out_fresh 7 flush0_7 t) d

end Cert.KernelIdeal.Hand

end
-- ==== Proof.KRun.lean ====
/-
  The kernel body as one step of the pipeline, on any whole staging buffers.

  The body reads the adjacency block, the bias column and the noise block, and a 10000 x 32 scratch H. At the
  first grid point it first fills H with the product of the feature matrix and the concatenated weights; at every
  later point it finds H as the point before left it. It then writes three 16 x 256 blocks: the clamped first
  half of (H^T adj_block^T + bias), the exponential of half the clamped second half, and the first plus the
  second times the transposed noise block. Everything else it leaves as it found it.

  Both statements are for any float instance: nothing of the arithmetic is opened, the written blocks are the
  body's own payload terms of the loaded blocks.
-/
import proofs.«156628_g73332271612656_cont_9to1c4b_773_27_alg».proof.Proof.Gen.KernelIdeal.Frame
import proofs.«156628_g73332271612656_cont_9to1c4b_773_27_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's branch condition: the grid coordinate is 0. -/
abbrev cond0 (i : grid0.Coords) : Prop :=
  (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

theorem hz2 : (![0, 0] : Fin 2 → Nat) = fun _ => 0 := funext fun a => by fin_cases a <;> rfl

/-- A load of a whole buffer reads its contents. -/
theorem readAt_whole {S : Shape} {e : EltTy} {M : Memref sig .tc .vmem S e} (h : M.IsWhole) {off : Fin S.rank → Nat}
    (hoff : off = fun _ => 0) (inb : ∀ a, off a + S.size a ≤ S.size a) (X : S.Idx → Elt F e) :
    M.view.readAt (Elt F) (Rect.unit off S.size inb).toLoadRect (h.unread X) = X := by
  rw [View.readAt_eq_ld, h.read_unread]; exact View.ld_unit_zero hoff inb X

/-- A store over a whole buffer leaves its payload. -/
theorem read_store_whole {S : Shape} {e : EltTy} (v : View sig .tc .vmem S e) (f : v.ty.Contents (Elt F)) {off : Fin S.rank → Nat}
    (hoff : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, by
    subst hoff; show y ∈ (Rect.whole S).set; rw [Rect.set_whole]; exact Finset.mem_univ y⟩), View.canon_unit_zero hoff]

/-- A LATER point (the coordinate is not 0): the scratch is read, not written. -/
theorem run_later (c : Dev nD) (i : grid0.Coords)
    (arg1 : Memref sig .tc .vmem S256x10000 .f32) (harg1 : arg1.IsWhole) (arg2 : Memref sig .tc .vmem S10000x128 .f32) (harg2 : arg2.IsWhole)
    (arg3 : Memref sig .tc .vmem S128x32 .f32) (harg3 : arg3.IsWhole) (arg4 : Memref sig .tc .vmem S32x1 .f32) (harg4 : arg4.IsWhole)
    (arg5 : Memref sig .tc .vmem S256x16 .f32) (harg5 : arg5.IsWhole) (arg6 : Memref sig .tc .vmem S16x256 .f32) (harg6 : arg6.IsWhole)
    (arg7 : Memref sig .tc .vmem S16x256 .f32) (harg7 : arg7.IsWhole) (arg8 : Memref sig .tc .vmem S16x256 .f32) (harg8 : arg8.IsWhole)
    (arg9 : Memref sig .tc .vmem S10000x32 .f32) (harg9 : arg9.IsWhole) (hc : ¬cond0 i)
    (x1 : Vec F S256x10000 .f32) (x4 : Vec F S32x1 .f32) (x5 : Vec F S256x16 .f32) (xs : Vec F S10000x32 .f32)
    (E : Set ℕ) (K : PUnit → sProp 𝕄) :
    iprop(owns (c : Thread nD τ) arg1 fullShare x1 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare xs
        ∗ (iprop(owns (c : Thread nD τ) arg1 fullShare x1 ∗ owns (c : Thread nD τ) arg4 fullShare x4 ∗ owns (c : Thread nD τ) arg5 fullShare x5
            ∗ owns (c : Thread nD τ) arg6 fullShare (k0_pay5 xs x1 x4 x5) ∗ owns (c : Thread nD τ) arg7 fullShare (k0_pay3 xs x1 x4)
            ∗ owns (c : Thread nD τ) arg8 fullShare (k0_pay4 xs x1 x4) ∗ owns (c : Thread nD τ) arg9 fullShare xs) -∗ K ⟨⟩))
      ⊢ wp frame (wpE (defs₀ (F := F)) Variants.none c none) E
          (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  unfold owns
  iintro ⟨⟨%f1, %hf1, H1⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  obtain rfl := harg1.eq_unread hf1; obtain rfl := harg4.eq_unread hf4; obtain rfl := harg5.eq_unread hf5; obtain rfl := harg9.eq_unread hf9
  sl_exec (disch := exact hc)
  sl_step
  iapply Hk
  rw [readAt_whole harg1 hz2, readAt_whole harg4 hz2, readAt_whole harg5 hz2, readAt_whole harg9 hz2]
  isplitl [H1]
  · iexists _; isplitr; · ipureintro; exact harg1.read_unread _
    iexact H1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact read_store_whole _ f6 hz2 inb_S16x256_S16x256_0_0 _
    iexact H6
  isplitl [H7]
  · iexists _; isplitr; · ipureintro; exact read_store_whole _ f7 hz2 inb_S16x256_S16x256_0_0 _
    iexact H7
  isplitl [H8]
  · iexists _; isplitr; · ipureintro; exact read_store_whole _ f8 hz2 inb_S16x256_S16x256_0_0 _
    iexact H8
  · iexists _; isplitr; · ipureintro; exact harg9.read_unread _
    iexact H9

/-- The FIRST point (the coordinate is 0): the scratch is filled from the features and the weights, then read. -/
theorem run_first (c : Dev nD) (i : grid0.Coords)
    (arg1 : Memref sig .tc .vmem S256x10000 .f32) (harg1 : arg1.IsWhole) (arg2 : Memref sig .tc .vmem S10000x128 .f32) (harg2 : arg2.IsWhole)
    (arg3 : Memref sig .tc .vmem S128x32 .f32) (harg3 : arg3.IsWhole) (arg4 : Memref sig .tc .vmem S32x1 .f32) (harg4 : arg4.IsWhole)
    (arg5 : Memref sig .tc .vmem S256x16 .f32) (harg5 : arg5.IsWhole) (arg6 : Memref sig .tc .vmem S16x256 .f32) (harg6 : arg6.IsWhole)
    (arg7 : Memref sig .tc .vmem S16x256 .f32) (harg7 : arg7.IsWhole) (arg8 : Memref sig .tc .vmem S16x256 .f32) (harg8 : arg8.IsWhole)
    (arg9 : Memref sig .tc .vmem S10000x32 .f32) (harg9 : arg9.IsWhole) (hc : cond0 i)
    (x1 : Vec F S256x10000 .f32) (x2 : Vec F S10000x128 .f32) (x3 : Vec F S128x32 .f32) (x4 : Vec F S32x1 .f32) (x5 : Vec F S256x16 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (k0_pay5 (k0_pay1 x2 x3) x1 x4 x5) ∗ owns (c : Thread nD τ) arg7 fullShare (k0_pay3 (k0_pay1 x2 x3) x1 x4)
            ∗ owns (c : Thread nD τ) arg8 fullShare (k0_pay4 (k0_pay1 x2 x3) x1 x4) ∗ owns (c : Thread nD τ) arg9 fullShare (k0_pay1 x2 x3)) -∗ K ⟨⟩))
      ⊢ wp frame (wpE (defs₀ (F := F)) Variants.none c none) E
          (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg1.eq_unread hf1; obtain rfl := harg2.eq_unread hf2; obtain rfl := harg3.eq_unread hf3
  obtain rfl := harg4.eq_unread hf4; obtain rfl := harg5.eq_unread hf5
  sl_exec (disch := exact hc)
  sl_step
  iapply Hk
  sl_unfold_run_names
  rw [View.readCov_unit_zero (S := S10000x32) _ hz2,
    readAt_whole harg1 hz2, readAt_whole harg2 hz2, readAt_whole harg3 hz2, readAt_whole harg4 hz2, readAt_whole harg5 hz2]
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact read_store_whole _ f6 hz2 inb_S16x256_S16x256_0_0 _
    iexact H6
  isplitl [H7]
  · iexists _; isplitr; · ipureintro; exact read_store_whole _ f7 hz2 inb_S16x256_S16x256_0_0 _
    iexact H7
  isplitl [H8]
  · iexists _; isplitr; · ipureintro; exact read_store_whole _ f8 hz2 inb_S16x256_S16x256_0_0 _
    iexact H8
  · iexists _; isplitr; · ipureintro; exact read_store_whole _ f9 hz2 inb_S10000x32_S10000x32_0_0 _
    iexact H9

end Cert.KernelIdeal.Hand

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.LibCrossDot.lean ====
/-
  A matrix product of a [K, R] operand by a [C, K] operand in which the LEFT operand's axis 0 is contracted with the
  RIGHT operand's axis 1 (the dimension numbers lhs_contracting = [0], rhs_contracting = [1], lhs_non_contracting = [1],
  rhs_non_contracting = [0], no batch axes), read at an entry (p, q) of the [R, C] result on the extended reals: the sum
  over k of l(k, p) · r(q, k) — the product of the left operand's transpose by the right operand's transpose. Stated
  for ANY dimension-number record of that form, so that it serves every such product whatever the record's name and
  whatever K, R, C are.
-/
import Idealize.ShloMosaic.PureOps.Ideal.Laws
import Idealize.ShloMosaic.Lib.ValueIdx

noncomputable section

namespace Idealize.ShloMosaic.CrossDot

open Idealize.ShloMosaic Idealize.ShloMosaic.ValueIdx

variable {K R C : ℕ}

/-- The dimension numbers of a product contracted across: the left operand's axis 0 is contracted with the right
    operand's axis 1; the left operand's axis 1 and the right operand's axis 0 survive, in that order; no batch axes. -/
structure IsCross (d : DotDims ⟨2, ![K, R]⟩ ⟨2, ![C, K]⟩ ⟨2, ![R, C]⟩) : Prop where
  lc : d.lhsContracting = [0]
  rc : d.rhsContracting = [1]
  ln : d.lhsNonContracting = [1]
  rn : d.rhsNonContracting = [0]
  lb : d.lhsBatch = []
  rb : d.rhsBatch = []

variable {d : DotDims ⟨2, ![K, R]⟩ ⟨2, ![C, K]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's surviving axis (its axis 1) carries the result's row. -/
theorem lhs_surv (h : IsCross d) (j : (⟨2, ![R, C]⟩ : Shape).Idx) (k : d.contr.Idx) :
    (d.lhsIdx j k 1).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's surviving axis (its axis 0) carries the result's column. -/
theorem rhs_surv (h : IsCross d) (j : (⟨2, ![R, C]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsCross d) : d.contr.rank = 1 := by
  rw [d.rank_contr, h.lc]; rfl

theorem contr_size (h : IsCross d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsCross d) {φ₁ φ₂ : FTy} (l : FVec Ideal ⟨2, ![K, R]⟩ φ₁) (r : FVec Ideal ⟨2, ![C, K]⟩ φ₂)
    (p : Fin R) (q : Fin C) :
    (∑ k : d.contr.Idx, l (d.lhsIdx (ix2 p q) k) * r (d.rhsIdx (ix2 p q) k)) = ∑ k : Fin K, l (ix2 k p) * r (ix2 q k) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 k p := funext fun a => Fin.ext (by
    match a with
    | ⟨0, _⟩ => exact (d.lhsIdx_val_of_single h.lc _ _).trans hk
    | ⟨1, _⟩ => exact lhs_surv h _ _)
  have er : d.rhsIdx (ix2 p q) ((contrEquiv1 d K (contr_rank h) (contr_size h)).symm k) = ix2 q k := funext fun a => Fin.ext (by
    match a with
    | ⟨0, _⟩ => exact rhs_surv h _ _
    | ⟨1, _⟩ => exact (d.rhsIdx_val_of_single h.rc _ _).trans hk)
  rw [el, er]

/-- A kernel's matrix product into a zero accumulator, read at (p, q). -/
theorem matmul_zero_apply (h : IsCross d) {φ₁ φ₂ : FTy} (prec : Option ContractPrecision)
    (l : FVec Ideal ⟨2, ![K, R]⟩ φ₁) (r : FVec Ideal ⟨2, ![C, K]⟩ φ₂) (p : Fin R) (q : Fin C) :
    FloatOps.matmul d prec l r (constant ⟨2, ![R, C]⟩ .f32 0x00000000#32) (ix2 p q) = ∑ k : Fin K, l (ix2 k p) * r (ix2 q k) := by
  rw [Ideal.matmul_constant_zero_apply]
  exact sum_apply h l r p q

/-- The host's matrix product of the same form read at (p, q). -/
theorem dotGeneral_apply (h : IsCross d) {φ₁ φ₂ : FTy} (prec : Option ContractPrecision) (sched : HostSchedule)
    (l : FVec Ideal ⟨2, ![K, R]⟩ φ₁) (r : FVec Ideal ⟨2, ![C, K]⟩ φ₂) (p : Fin R) (q : Fin C) :
    FloatOps.dotGeneral d prec sched l r (ix2 p q) = ∑ k : Fin K, l (ix2 k p) * r (ix2 q k) := by
  rw [Ideal.dotGeneral_apply]
  exact sum_apply h l r p q

end Idealize.ShloMosaic.CrossDot

end
-- ==== Proof.KPay.lean ====
/-
  The kernel body's arithmetic read at an entry, on the extended reals.

  The body forms the 10000 x 32 scratch h = x · [W1 | W2] once, and for each block of 256 rows of the adjacency the
  32 x 256 block r[j, i] = max((sum over k of h[k, j] · a[i, k]) + b[j], 0). Rows 0..15 of r are the means, the
  exponential of half of rows 16..31 the deviations, and means + deviations · (noise block transposed) the samples.
  Each stored value is read here at explicit coordinates, and a column of the three stored blocks is identified with
  a row of the specification: the product commutes under the sum, and exp(v / 2) = sqrt(exp v).
-/
import proofs.«156628_g73332271612656_cont_9to1c4b_773_27_alg».proof.Proof.Gen.KernelIdeal.Skeleton
import proofs.«156628_g73332271612656_cont_9to1c4b_773_27_alg».proof.Proof.Spec
import proofs.«156628_g73332271612656_cont_9to1c4b_773_27_alg».proof.Proof.LibPlainDot
import proofs.«156628_g73332271612656_cont_9to1c4b_773_27_alg».proof.Proof.LibCrossDot
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

/-- The first product's dimension numbers are those of a plain row-by-column product. -/
theorem plain1 : PlainDot.IsPlain (R := 10000) (K := 128) (C := 32) dot_S10000x128_S128x32_S10000x32_1_0_0_1_n_n :=
  ⟨rfl, rfl, rfl, rfl, rfl, rfl⟩

/-- The second product contracts the left operand's axis 0 with the right operand's axis 1. -/
theorem cross2 : CrossDot.IsCross (K := 10000) (R := 32) (C := 256) dot_S10000x32_S256x10000_S32x256_0_1_1_0_n_n :=
  ⟨rfl, rfl, rfl, rfl, rfl, rfl⟩

/-- The clamped accumulator at (j, i): max((Σ_k h[k, j] * a[i, k]) + b[j, 0], 0). -/
def racc (h : Vec Ideal S10000x32 .f32) (a : Vec Ideal S256x10000 .f32) (b : Vec Ideal S32x1 .f32) (j : Fin 32) (i : Fin 256) : EReal :=
  max ((∑ k : Fin 10000, h (ix2 k j) * a (ix2 i k)) + b (ix2 j (0 : Fin 1))) 0

/-- The scratch at (k, j): row k of x against column j of the concatenated weights. -/
theorem pay1_apply (x2 : Vec Ideal S10000x128 .f32) (x3 : Vec Ideal S128x32 .f32) (k : Fin 10000) (j : Fin 32) :
    k0_pay1 (F := Ideal) x2 x3 (ix2 k j) = ∑ f : Fin 128, x2 (ix2 k f) * x3 (ix2 f j) := by
  unfold k0_pay1
  rw [shapeCast_self, shapeCast_self]
  exact PlainDot.matmul_zero_apply plain1 none x2 x3 k j

/-- The bias column spread along the 256 lanes, read at (j, i): the column's entry j. -/
theorem bias_apply (b : Vec Ideal S32x1 .f32) (j : Fin 32) (i : Fin 256) :
    broadcastTo S32x256 b broadcasts_S32x1_S32x256 (ix2 j i) = b (ix2 j (0 : Fin 1)) :=
  broadcastTo_apply b broadcasts_S32x1_S32x256 (ix2 j i) (ix2 j (0 : Fin 1)) fun c => match c with
    | ⟨0, _⟩ => rfl
    | ⟨1, _⟩ => rfl

/-- The clamped accumulator block at (j, i). -/
theorem pay2_apply (h : Vec Ideal S10000x32 .f32) (a : Vec Ideal S256x10000 .f32) (b : Vec Ideal S32x1 .f32) (j : Fin 32) (i : Fin 256) :
    k0_pay2 (F := Ideal) h a b (ix2 j i) = racc h a b j i := by
  unfold k0_pay2 racc
  rw [maximumf_apply, addf_apply, broadcast_apply, shapeCast_self, bias_apply, Ideal.ofBits_def, Ideal.ofBits_zero_f32]
  exact congrArg (fun s : EReal => max (s + b (ix2 j (0 : Fin 1))) 0)
    (CrossDot.matmul_zero_apply (φ₁ := .f32) (φ₂ := .f32) cross2 none h a j i)

/-- Rows 0..15 of a 32 x 256 block. -/
theorem slice_lo_apply (v : Vec Ideal S32x256 .f32) (j : Fin 16) (i : Fin 256) :
    extractStridedSlice S16x256 ![0, 0] v slices_S32x256_o0_0_S16x256 (ix2 j i) = v (ix2 (⟨j.val, by omega⟩ : Fin 32) i) :=
  extractStridedSlice_apply ![0, 0] v slices_S32x256_o0_0_S16x256 (ix2 j i) (ix2 (⟨j.val, by omega⟩ : Fin 32) i) fun c => match c with
    | ⟨0, _⟩ => (Nat.zero_add _).symm
    | ⟨1, _⟩ => (Nat.zero_add _).symm

/-- Rows 16..31 of a 32 x 256 block. -/
theorem slice_hi_apply (v : Vec Ideal S32x256 .f32) (j : Fin 16) (i : Fin 256) :
    extractStridedSlice S16x256 ![16, 0] v slices_S32x256_o16_0_S16x256 (ix2 j i) = v (ix2 (⟨16 + j.val, by omega⟩ : Fin 32) i) :=
  extractStridedSlice_apply ![16, 0] v slices_S32x256_o16_0_S16x256 (ix2 j i) (ix2 (⟨16 + j.val, by omega⟩ : Fin 32) i) fun c => match c with
    | ⟨0, _⟩ => rfl
    | ⟨1, _⟩ => (Nat.zero_add _).symm

/-- The mean block at (j, i). -/
theorem pay3_apply (h : Vec Ideal S10000x32 .f32) (a : Vec Ideal S256x10000 .f32) (b : Vec Ideal S32x1 .f32) (j : Fin 16) (i : Fin 256) :
    k0_pay3 (F := Ideal) h a b (ix2 j i) = racc h a b ⟨j.val, by omega⟩ i := by
  unfold k0_pay3
  exact (slice_lo_apply _ j i).trans (pay2_apply h a b ⟨j.val, by omega⟩ i)

/-- The exponential of a block is taken entry by entry. -/
theorem exp_apply (v : FVec Ideal S16x256 .f32) (y : S16x256.Idx) : exp v y = Ideal.exp (v y) := rfl

/-- The deviation block at (j, i). -/
theorem pay4_apply (h : Vec Ideal S10000x32 .f32) (a : Vec Ideal S256x10000 .f32) (b : Vec Ideal S32x1 .f32) (j : Fin 16) (i : Fin 256) :
    k0_pay4 (F := Ideal) h a b (ix2 j i) = Ideal.exp (((1 / 2 : ℝ) : EReal) * racc h a b ⟨16 + j.val, by omega⟩ i) := by
  unfold k0_pay4
  rw [exp_apply, mulf_apply, broadcast_apply, Ideal.ofBits_def, Cert.Spec.ofBits_half, slice_hi_apply, pay2_apply]

/-- The sample block at (j, i). -/
theorem pay5_apply (h : Vec Ideal S10000x32 .f32) (a : Vec Ideal S256x10000 .f32) (b : Vec Ideal S32x1 .f32) (e : Vec Ideal S256x16 .f32)
    (j : Fin 16) (i : Fin 256) :
    k0_pay5 (F := Ideal) h a b e (ix2 j i)
      = racc h a b ⟨j.val, by omega⟩ i + Ideal.exp (((1 / 2 : ℝ) : EReal) * racc h a b ⟨16 + j.val, by omega⟩ i) * e (ix2 i j) := by
  unfold k0_pay5
  dsimp only
  rw [addf_apply, mulf_apply, pay3_apply, pay4_apply, transpose_ix2_apply]

/-- The accumulator of a column of the tile is the specification's pre-activation: the product commutes under the sum. -/
theorem racc_eq_pre (adj : FVec Ideal Cert.Spec.Sadj .f32) (x : FVec Ideal Cert.Spec.Sx .f32) (W : FVec Ideal Cert.Spec.SW .f32)
    (bb : FVec Ideal Cert.Spec.Sb .f32)
    (h : Vec Ideal S10000x32 .f32) (a : Vec Ideal S256x10000 .f32) (b : Vec Ideal S32x1 .f32)
    (J : Fin 32) (j : Fin 16)
    (hh : ∀ k : Fin 10000, h (ix2 k J) = Cert.Spec.xw x W k j) (hb : b (ix2 J (0 : Fin 1)) = bb (ix1 j))
    (i : Fin 256) (I : Fin 10000) (ha : ∀ k : Fin 10000, a (ix2 i k) = adj (ix2 I k)) :
    racc h a b J i = max (Cert.Spec.pre adj x W bb I j) 0 := by
  unfold racc Cert.Spec.pre
  rw [hb]
  refine congrArg (fun s => max (s + bb (ix1 j)) 0) (Finset.sum_congr rfl fun k _ => ?_)
  rw [hh k, ha k, mul_comm]

/-- ONE ROW OF A TILE IS ONE ROW OF THE SPECIFICATION. If the scratch h holds x·[W1|W2] (hh1, hh2), the bias column
    holds b1 then b2 (hb1, hb2), and row i of the adjacency block and of the noise block are row I of the arrays
    (ha, he), then column i of the three written blocks is row I of the specification's mu, sd, z. -/
theorem tile_row (adj : FVec Ideal Cert.Spec.Sadj .f32) (x : FVec Ideal Cert.Spec.Sx .f32) (W1 : FVec Ideal Cert.Spec.SW .f32) (b1 : FVec Ideal Cert.Spec.Sb .f32)
    (W2 : FVec Ideal Cert.Spec.SW .f32) (b2 : FVec Ideal Cert.Spec.Sb .f32) (eps : FVec Ideal Cert.Spec.Sout .f32)
    (h : Vec Ideal S10000x32 .f32) (a : Vec Ideal S256x10000 .f32) (b : Vec Ideal S32x1 .f32) (e : Vec Ideal S256x16 .f32)
    (hh1 : ∀ (k : Fin 10000) (j : Fin 16), h (ix2 k ⟨j.val, by omega⟩) = Cert.Spec.xw x W1 k j)
    (hh2 : ∀ (k : Fin 10000) (j : Fin 16), h (ix2 k ⟨16 + j.val, by omega⟩) = Cert.Spec.xw x W2 k j)
    (hb1 : ∀ j : Fin 16, b (ix2 ⟨j.val, by omega⟩ (0 : Fin 1)) = b1 (ix1 j)) (hb2 : ∀ j : Fin 16, b (ix2 ⟨16 + j.val, by omega⟩ (0 : Fin 1)) = b2 (ix1 j))
    (i : Fin 256) (I : Fin 10000) (ha : ∀ k : Fin 10000, a (ix2 i k) = adj (ix2 I k)) (he : ∀ j : Fin 16, e (ix2 i j) = eps (ix2 I j)) (j : Fin 16) :
    k0_pay3 (F := Ideal) h a b (ix2 j i) = Cert.Spec.mu adj x W1 b1 I j
      ∧ k0_pay4 (F := Ideal) h a b (ix2 j i) = Cert.Spec.sd adj x W2 b2 I j
      ∧ k0_pay5 (F := Ideal) h a b e (ix2 j i) = Cert.Spec.z adj x W1 b1 W2 b2 eps I j := by
  have e1 : racc h a b ⟨j.val, by omega⟩ i = max (Cert.Spec.pre adj x W1 b1 I j) 0 :=
    racc_eq_pre adj x W1 b1 h a b ⟨j.val, by omega⟩ j (fun k => hh1 k j) (hb1 j) i I ha
  have e2 : racc h a b ⟨16 + j.val, by omega⟩ i = max (Cert.Spec.pre adj x W2 b2 I j) 0 :=
    racc_eq_pre adj x W2 b2 h a b ⟨16 + j.val, by omega⟩ j (fun k => hh2 k j) (hb2 j) i I ha
  refine ⟨?_, ?_, ?_⟩
  · rw [pay3_apply, e1]; rfl
  · rw [pay4_apply, e2, Cert.Spec.exp_half]; rfl
  · rw [pay5_apply, e1, e2, Cert.Spec.exp_half, he j]; rfl

end Cert.KernelIdeal.Hand

end
-- ==== Proof.KWin.lean ====
/-
  The windows' index arithmetic: which entry of its array an entry of a staging buffer is, and that the result
  blocks tile their arrays.

  The grid has 40 points. At point t the adjacency window (blocks of 256 rows, all 10000 columns) and the noise
  window (blocks of 256 rows, all 16 columns) are at block (t, 0) and the three result windows (blocks of all 16 rows,
  256 columns) at block (0, t); the features, the concatenated weights and the bias column are whole arrays at
  block (0, 0). Since 40 * 256 = 10240 > 10000 the last block of each moving window overhangs its array and its
  transfer is cut to the 10000 - 39 * 256 = 16 rows (columns) inside: in one closed form, the transfer at t moves
  the coordinates 256 t ≤ r < min (256 t + 256) 10000 of the long axis. An element of a block sits in its array, on
  each axis, at block index times block size plus its coordinate inside the block. The result blocks cover every
  column r < 10000 (the point r / 256), so after the run each result array holds the specification's array.
-/
import proofs.«156628_g73332271612656_cont_9to1c4b_773_27_alg».proof.Proof.KData
import Idealize.ShloMosaic.Lib.ValueIdx
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-! ## The index maps and the cuts, decided over the grid -/

/-- The adjacency window at point t: block (t, 0); its transfer moves rows 256 t ≤ r < min (256 t + 256) 10000 and
    all 10000 columns. -/
theorem idx_in0 : ∀ t : Fin cfg0.N, win0_0.index t (0 : Fin 2) = t.val ∧ win0_0.index t (1 : Fin 2) = 0
    ∧ t.val * 256 + win0_0.xsize (grid0.coords t) (0 : Fin 2) = min (t.val * 256 + 256) 10000
    ∧ win0_0.xsize (grid0.coords t) (1 : Fin 2) = 10000 :=
  (by decide +kernel : ∀ t : Fin grid0.N, _)

/-- The noise window at point t: block (t, 0); the same rows and all 16 columns. -/
theorem idx_in4 : ∀ t : Fin cfg0.N, win0_4.index t (0 : Fin 2) = t.val ∧ win0_4.index t (1 : Fin 2) = 0
    ∧ t.val * 256 + win0_4.xsize (grid0.coords t) (0 : Fin 2) = min (t.val * 256 + 256) 10000
    ∧ win0_4.xsize (grid0.coords t) (1 : Fin 2) = 16 :=
  (by decide +kernel : ∀ t : Fin grid0.N, _)

/-- Each result window at point t: block (0, t); its transfer moves all 16 rows and the columns
    256 t ≤ r < min (256 t + 256) 10000. -/
theorem idx_out5 : ∀ t : Fin cfg0.N, win0_5.index t (0 : Fin 2) = 0 ∧ win0_5.index t (1 : Fin 2) = t.val
    ∧ win0_5.xsize (grid0.coords t) (0 : Fin 2) = 16
    ∧ t.val * 256 + win0_5.xsize (grid0.coords t) (1 : Fin 2) = min (t.val * 256 + 256) 10000 :=
  (by decide +kernel : ∀ t : Fin grid0.N, _)
theorem idx_out6 : ∀ t : Fin cfg0.N, win0_6.index t (0 : Fin 2) = 0 ∧ win0_6.index t (1 : Fin 2) = t.val
    ∧ win0_6.xsize (grid0.coords t) (0 : Fin 2) = 16
    ∧ t.val * 256 + win0_6.xsize (grid0.coords t) (1 : Fin 2) = min (t.val * 256 + 256) 10000 :=
  (by decide +kernel : ∀ t : Fin grid0.N, _)
theorem idx_out7 : ∀ t : Fin cfg0.N, win0_7.index t (0 : Fin 2) = 0 ∧ win0_7.index t (1 : Fin 2) = t.val
    ∧ win0_7.xsize (grid0.coords t) (0 : Fin 2) = 16
    ∧ t.val * 256 + win0_7.xsize (grid0.coords t) (1 : Fin 2) = min (t.val * 256 + 256) 10000 :=
  (by decide +kernel : ∀ t : Fin grid0.N, _)

/-! ## The input buffers, row by row -/

/-- Row i of the adjacency buffer after the fetch at point t, if inside the array, is row 256 t + i of the adjacency. -/
theorem bufAdj_row (c : Dev nD) (t : Fin cfg0.N) (d : Vec Ideal S256x10000 .f32) (i : Fin 256) (I : Fin 10000)
    (hI : I.val = 256 * t.val + i.val) (k : Fin 10000) :
    bufAdj m c t d (ix2 i k) = aAdj m c (ix2 I k) := by
  obtain ⟨e0, e1, x0, x1⟩ := idx_in0 t
  have hI' : I.val < 10000 := I.isLt
  -- the row is among those the fetch moves: below 256 at an inner block, below 16 at the last, where 256 t + i < 10000
  have hmv : (cfg0.win 0).moved (grid0.coords t) (ix2 i k) = true := by
    rw [Window.moved_iff]
    intro a
    match a with
    | ⟨0, _⟩ => show i.val < win0_0.xsize (grid0.coords t) (0 : Fin 2); omega
    | ⟨1, _⟩ => show k.val < win0_0.xsize (grid0.coords t) (1 : Fin 2); rw [x1]; exact k.isLt
  show (cfg0.win 0).fill (grid0.coords t) d (iblk m c 0 t) (ix2 i k) = _
  unfold Window.fill
  rw [dif_pos hmv]
  -- the block's element (i, k) sits in the array at (t * 256 + i, 0 * 10000 + k)
  show V m c main_arg1 (((cfg0.win 0).blk t).view.emb _) = V m c main_arg1 (ix2 I k)
  congr 1
  funext a; apply Fin.ext
  match a with
  | ⟨0, _⟩ => show win0_0.index t (0 : Fin 2) * 256 + 1 * i.val = I.val; omega
  | ⟨1, _⟩ => show win0_0.index t (1 : Fin 2) * 10000 + 1 * k.val = k.val; omega

/-- Row i of the noise buffer after the fetch at point t, if inside the array, is row 256 t + i of the noise. -/
theorem bufEps_row (c : Dev nD) (t : Fin cfg0.N) (d : Vec Ideal S256x16 .f32) (i : Fin 256) (I : Fin 10000)
    (hI : I.val = 256 * t.val + i.val) (j : Fin 16) :
    bufEps m c t d (ix2 i j) = aEps m c (ix2 I j) := by
  obtain ⟨e0, e1, x0, x1⟩ := idx_in4 t
  have hI' : I.val < 10000 := I.isLt
  -- the row is among those the fetch moves: below 256 at an inner block, below 16 at the last, where 256 t + i < 10000
  have hmv : (cfg0.win 4).moved (grid0.coords t) (ix2 i j) = true := by
    rw [Window.moved_iff]
    intro a
    match a with
    | ⟨0, _⟩ => show i.val < win0_4.xsize (grid0.coords t) (0 : Fin 2); omega
    | ⟨1, _⟩ => show j.val < win0_4.xsize (grid0.coords t) (1 : Fin 2); rw [x1]; exact j.isLt
  show (cfg0.win 4).fill (grid0.coords t) d (iblk m c 4 t) (ix2 i j) = _
  unfold Window.fill
  rw [dif_pos hmv]
  -- the block's element (i, j) sits in the array at (t * 256 + i, 0 * 16 + j)
  show V m c main_arg6 (((cfg0.win 4).blk t).view.emb _) = V m c main_arg6 (ix2 I j)
  congr 1
  funext a; apply Fin.ext
  match a with
  | ⟨0, _⟩ => show win0_4.index t (0 : Fin 2) * 256 + 1 * i.val = I.val; omega
  | ⟨1, _⟩ => show win0_4.index t (1 : Fin 2) * 16 + 1 * j.val = j.val; omega

/-! ## The whole-array windows: the block is the array -/

/-- The features' block, at block (0, 0) of size [10000, 128], is the features. -/
theorem blkX_apply (c : Dev nD) (t : Fin cfg0.N) (k : Fin 10000) (f : Fin 128) :
    blkX m c t (ix2 k f) = aX m c (ix2 k f) := by
  show V m c main_arg0 (((cfg0.win 1).blk t).view.emb (ix2 k f)) = V m c main_arg0 (ix2 k f)
  congr 1
  funext a; apply Fin.ext
  have z0 : win0_1.index t (0 : Fin 2) = 0 := rfl
  have z1 : win0_1.index t (1 : Fin 2) = 0 := rfl
  match a with
  | ⟨0, _⟩ => show win0_1.index t (0 : Fin 2) * 10000 + 1 * k.val = k.val; omega
  | ⟨1, _⟩ => show win0_1.index t (1 : Fin 2) * 128 + 1 * (f).val = (f).val; omega

/-- The concatenated weights' block, at block (0, 0) of size [128, 32], is that array. -/
theorem blkW_apply (c : Dev nD) (t : Fin cfg0.N) (f : Fin 128) (j : Fin 32) :
    blkW m c t (ix2 f j) = V m c main_v0 (ix2 f j) := by
  show V m c main_v0 (((cfg0.win 2).blk t).view.emb (ix2 f j)) = V m c main_v0 (ix2 f j)
  congr 1
  funext a; apply Fin.ext
  have z0 : win0_2.index t (0 : Fin 2) = 0 := rfl
  have z1 : win0_2.index t (1 : Fin 2) = 0 := rfl
  match a with
  | ⟨0, _⟩ => show win0_2.index t (0 : Fin 2) * 128 + 1 * f.val = f.val; omega
  | ⟨1, _⟩ => show win0_2.index t (1 : Fin 2) * 32 + 1 * (j).val = (j).val; omega

/-- The bias column's block, at block (0, 0) of size [32, 1], is that array. -/
theorem blkB_apply (c : Dev nD) (t : Fin cfg0.N) (j : Fin 32)  :
    blkB m c t (ix2 j (0 : Fin 1)) = V m c main_v2 (ix2 j (0 : Fin 1)) := by
  show V m c main_v2 (((cfg0.win 3).blk t).view.emb (ix2 j (0 : Fin 1))) = V m c main_v2 (ix2 j (0 : Fin 1))
  congr 1
  funext a; apply Fin.ext
  have z0 : win0_3.index t (0 : Fin 2) = 0 := rfl
  have z1 : win0_3.index t (1 : Fin 2) = 0 := rfl
  match a with
  | ⟨0, _⟩ => show win0_3.index t (0 : Fin 2) * 32 + 1 * j.val = j.val; omega
  | ⟨1, _⟩ => show win0_3.index t (1 : Fin 2) * 1 + 1 * ((0 : Fin 1)).val = ((0 : Fin 1)).val; omega

/-! ## The result windows: what a write-back writes, and the array after the run -/

/-- A result buffer X whose column i, for every column inside the array, is column 256 t + i of G: what the write-back at t
    writes — the buffer's columns inside the array — is block t of G (the sample, feature major). -/
theorem cut_read_5 (c : Dev nD) (t : Fin cfg0.N) (X : Vec Ideal S16x256 .f32) (G : Vec Ideal S16x10000 .f32)
    (h : ∀ (j : Fin 16) (i : Fin 256) (I : Fin 10000), I.val = 256 * t.val + i.val → X (ix2 j i) = G (ix2 j I)) :
    (cfg0.win 5).cut (grid0.coords t) X = ((cfg0.win 5).blk t).view.read (Elt Ideal) G := by
  obtain ⟨e0, e1, x0, x1⟩ := idx_out5 t
  funext y
  have hy0 : (y 0).val < win0_5.xsize (grid0.coords t) (0 : Fin 2) := (y 0).isLt
  have hy1 : (y 1).val < win0_5.xsize (grid0.coords t) (1 : Fin 2) := (y 1).isLt
  -- an element (j, i) of the part written back is element (j, i) of the buffer …
  have hX : win0_5.xinj (grid0.coords t) y = ix2 (⟨(y 0).val, by omega⟩ : Fin 16) (⟨(y 1).val, by omega⟩ : Fin 256) := by
    funext a; match a with | ⟨0, _⟩ => rfl | ⟨1, _⟩ => rfl
  -- … and lands in the array at (0 * 16 + j, t * 256 + i)
  have hG : (win0_5.blk t).view.emb y
      = ix2 (⟨(y 0).val, by omega⟩ : Fin 16) (⟨256 * t.val + (y 1).val, by omega⟩ : Fin 10000) := by
    funext a; apply Fin.ext
    match a with
    | ⟨0, _⟩ => show win0_5.index t (0 : Fin 2) * 16 + 1 * (y 0).val = (y 0).val; omega
    | ⟨1, _⟩ => show win0_5.index t (1 : Fin 2) * 256 + 1 * (y 1).val = 256 * t.val + (y 1).val; omega
  show X (win0_5.xinj (grid0.coords t) y) = G ((win0_5.blk t).view.emb y)
  rw [hX, hG]
  exact h _ _ _ rfl

/-- An index of the array is in point t's block iff each coordinate is in the block's range on its axis: from the block's
    first coordinate, as many as the transfer moves. -/
theorem mem_blk_5 (t : Fin cfg0.N) (i : S16x10000.Idx) :
    i ∈ ((cfg0.win 5).blk t).view.set ↔ ∀ a : Fin 2, win0_5.index t a * S16x256.size a ≤ (i a).val
      ∧ (i a).val < win0_5.index t a * S16x256.size a + win0_5.xsize (grid0.coords t) a := by
  show i ∈ ((View.whole main_v3_0).slice (win0_5.rect t)).set ↔ _
  rw [View.set_slice_whole, Rect.mem_set_unit]
  exact Iff.rfl

/-- The blocks tile the array: column r lies in the block of point r / 256 (below 40 since r < 10000), all 16 rows of
    which are inside the array and whose columns are 256 (r / 256) ≤ r < min (256 (r / 256) + 256) 10000. -/
theorem cover_5 (i : S16x10000.Idx) :
    ∃ t : Fin cfg0.N, (cfg0.win 5).flush t = true ∧ i ∈ ((cfg0.win 5).blk t).view.set := by
  have hi0 : (i 0).val < 16 := (i 0).isLt
  have hi1 : (i 1).val < 10000 := (i 1).isLt
  have ht : (i 1).val / 256 < 40 := by omega
  obtain ⟨e0, e1, x0, x1⟩ := idx_out5 ⟨(i 1).val / 256, ht⟩
  refine ⟨⟨(i 1).val / 256, ht⟩, flush0_5 _, ?_⟩
  rw [mem_blk_5]
  intro a
  match a with
  | ⟨0, _⟩ =>
    show win0_5.index ⟨(i 1).val / 256, ht⟩ (0 : Fin 2) * 16 ≤ (i 0).val
      ∧ (i 0).val < win0_5.index ⟨(i 1).val / 256, ht⟩ (0 : Fin 2) * 16
          + win0_5.xsize (grid0.coords ⟨(i 1).val / 256, ht⟩) (0 : Fin 2)
    omega
  | ⟨1, _⟩ =>
    show win0_5.index ⟨(i 1).val / 256, ht⟩ (1 : Fin 2) * 256 ≤ (i 1).val
      ∧ (i 1).val < win0_5.index ⟨(i 1).val / 256, ht⟩ (1 : Fin 2) * 256
          + win0_5.xsize (grid0.coords ⟨(i 1).val / 256, ht⟩) (1 : Fin 2)
    have e1' : win0_5.index ⟨(i 1).val / 256, ht⟩ (1 : Fin 2) = (i 1).val / 256 := e1
    have x1' : (i 1).val / 256 * 256 + win0_5.xsize (grid0.coords ⟨(i 1).val / 256, ht⟩) (1 : Fin 2)
        = min ((i 1).val / 256 * 256 + 256) 10000 := x1
    omega

/-- Every point writes its block of the sample, feature major back and the blocks tile the array: after the run the array holds it. -/
theorem final_5 (c : Dev nD) : (dats m 0 c).arrAt 5 cfg0.N = ZTa m c :=
  (dats m 0 c).arrAt_eq_of_cover 5 (ZTa m c) (fun t _ => flushed_5 m c t) cover_5

/-- A result buffer X whose column i, for every column inside the array, is column 256 t + i of G: what the write-back at t
    writes — the buffer's columns inside the array — is block t of G (the mean, feature major). -/
theorem cut_read_6 (c : Dev nD) (t : Fin cfg0.N) (X : Vec Ideal S16x256 .f32) (G : Vec Ideal S16x10000 .f32)
    (h : ∀ (j : Fin 16) (i : Fin 256) (I : Fin 10000), I.val = 256 * t.val + i.val → X (ix2 j i) = G (ix2 j I)) :
    (cfg0.win 6).cut (grid0.coords t) X = ((cfg0.win 6).blk t).view.read (Elt Ideal) G := by
  obtain ⟨e0, e1, x0, x1⟩ := idx_out6 t
  funext y
  have hy0 : (y 0).val < win0_6.xsize (grid0.coords t) (0 : Fin 2) := (y 0).isLt
  have hy1 : (y 1).val < win0_6.xsize (grid0.coords t) (1 : Fin 2) := (y 1).isLt
  -- an element (j, i) of the part written back is element (j, i) of the buffer …
  have hX : win0_6.xinj (grid0.coords t) y = ix2 (⟨(y 0).val, by omega⟩ : Fin 16) (⟨(y 1).val, by omega⟩ : Fin 256) := by
    funext a; match a with | ⟨0, _⟩ => rfl | ⟨1, _⟩ => rfl
  -- … and lands in the array at (0 * 16 + j, t * 256 + i)
  have hG : (win0_6.blk t).view.emb y
      = ix2 (⟨(y 0).val, by omega⟩ : Fin 16) (⟨256 * t.val + (y 1).val, by omega⟩ : Fin 10000) := by
    funext a; apply Fin.ext
    match a with
    | ⟨0, _⟩ => show win0_6.index t (0 : Fin 2) * 16 + 1 * (y 0).val = (y 0).val; omega
    | ⟨1, _⟩ => show win0_6.index t (1 : Fin 2) * 256 + 1 * (y 1).val = 256 * t.val + (y 1).val; omega
  show X (win0_6.xinj (grid0.coords t) y) = G ((win0_6.blk t).view.emb y)
  rw [hX, hG]
  exact h _ _ _ rfl

/-- An index of the array is in point t's block iff each coordinate is in the block's range on its axis: from the block's
    first coordinate, as many as the transfer moves. -/
theorem mem_blk_6 (t : Fin cfg0.N) (i : S16x10000.Idx) :
    i ∈ ((cfg0.win 6).blk t).view.set ↔ ∀ a : Fin 2, win0_6.index t a * S16x256.size a ≤ (i a).val
      ∧ (i a).val < win0_6.index t a * S16x256.size a + win0_6.xsize (grid0.coords t) a := by
  show i ∈ ((View.whole main_v3_1).slice (win0_6.rect t)).set ↔ _
  rw [View.set_slice_whole, Rect.mem_set_unit]
  exact Iff.rfl

/-- The blocks tile the array: column r lies in the block of point r / 256 (below 40 since r < 10000), all 16 rows of
    which are inside the array and whose columns are 256 (r / 256) ≤ r < min (256 (r / 256) + 256) 10000. -/
theorem cover_6 (i : S16x10000.Idx) :
    ∃ t : Fin cfg0.N, (cfg0.win 6).flush t = true ∧ i ∈ ((cfg0.win 6).blk t).view.set := by
  have hi0 : (i 0).val < 16 := (i 0).isLt
  have hi1 : (i 1).val < 10000 := (i 1).isLt
  have ht : (i 1).val / 256 < 40 := by omega
  obtain ⟨e0, e1, x0, x1⟩ := idx_out6 ⟨(i 1).val / 256, ht⟩
  refine ⟨⟨(i 1).val / 256, ht⟩, flush0_6 _, ?_⟩
  rw [mem_blk_6]
  intro a
  match a with
  | ⟨0, _⟩ =>
    show win0_6.index ⟨(i 1).val / 256, ht⟩ (0 : Fin 2) * 16 ≤ (i 0).val
      ∧ (i 0).val < win0_6.index ⟨(i 1).val / 256, ht⟩ (0 : Fin 2) * 16
          + win0_6.xsize (grid0.coords ⟨(i 1).val / 256, ht⟩) (0 : Fin 2)
    omega
  | ⟨1, _⟩ =>
    show win0_6.index ⟨(i 1).val / 256, ht⟩ (1 : Fin 2) * 256 ≤ (i 1).val
      ∧ (i 1).val < win0_6.index ⟨(i 1).val / 256, ht⟩ (1 : Fin 2) * 256
          + win0_6.xsize (grid0.coords ⟨(i 1).val / 256, ht⟩) (1 : Fin 2)
    have e1' : win0_6.index ⟨(i 1).val / 256, ht⟩ (1 : Fin 2) = (i 1).val / 256 := e1
    have x1' : (i 1).val / 256 * 256 + win0_6.xsize (grid0.coords ⟨(i 1).val / 256, ht⟩) (1 : Fin 2)
        = min ((i 1).val / 256 * 256 + 256) 10000 := x1
    omega

/-- Every point writes its block of the mean, feature major back and the blocks tile the array: after the run the array holds it. -/
theorem final_6 (c : Dev nD) : (dats m 0 c).arrAt 6 cfg0.N = MuTa m c :=
  (dats m 0 c).arrAt_eq_of_cover 6 (MuTa m c) (fun t _ => flushed_6 m c t) cover_6

/-- A result buffer X whose column i, for every column inside the array, is column 256 t + i of G: what the write-back at t
    writes — the buffer's columns inside the array — is block t of G (the deviation, feature major). -/
theorem cut_read_7 (c : Dev nD) (t : Fin cfg0.N) (X : Vec Ideal S16x256 .f32) (G : Vec Ideal S16x10000 .f32)
    (h : ∀ (j : Fin 16) (i : Fin 256) (I : Fin 10000), I.val = 256 * t.val + i.val → X (ix2 j i) = G (ix2 j I)) :
    (cfg0.win 7).cut (grid0.coords t) X = ((cfg0.win 7).blk t).view.read (Elt Ideal) G := by
  obtain ⟨e0, e1, x0, x1⟩ := idx_out7 t
  funext y
  have hy0 : (y 0).val < win0_7.xsize (grid0.coords t) (0 : Fin 2) := (y 0).isLt
  have hy1 : (y 1).val < win0_7.xsize (grid0.coords t) (1 : Fin 2) := (y 1).isLt
  -- an element (j, i) of the part written back is element (j, i) of the buffer …
  have hX : win0_7.xinj (grid0.coords t) y = ix2 (⟨(y 0).val, by omega⟩ : Fin 16) (⟨(y 1).val, by omega⟩ : Fin 256) := by
    funext a; match a with | ⟨0, _⟩ => rfl | ⟨1, _⟩ => rfl
  -- … and lands in the array at (0 * 16 + j, t * 256 + i)
  have hG : (win0_7.blk t).view.emb y
      = ix2 (⟨(y 0).val, by omega⟩ : Fin 16) (⟨256 * t.val + (y 1).val, by omega⟩ : Fin 10000) := by
    funext a; apply Fin.ext
    match a with
    | ⟨0, _⟩ => show win0_7.index t (0 : Fin 2) * 16 + 1 * (y 0).val = (y 0).val; omega
    | ⟨1, _⟩ => show win0_7.index t (1 : Fin 2) * 256 + 1 * (y 1).val = 256 * t.val + (y 1).val; omega
  show X (win0_7.xinj (grid0.coords t) y) = G ((win0_7.blk t).view.emb y)
  rw [hX, hG]
  exact h _ _ _ rfl

/-- An index of the array is in point t's block iff each coordinate is in the block's range on its axis: from the block's
    first coordinate, as many as the transfer moves. -/
theorem mem_blk_7 (t : Fin cfg0.N) (i : S16x10000.Idx) :
    i ∈ ((cfg0.win 7).blk t).view.set ↔ ∀ a : Fin 2, win0_7.index t a * S16x256.size a ≤ (i a).val
      ∧ (i a).val < win0_7.index t a * S16x256.size a + win0_7.xsize (grid0.coords t) a := by
  show i ∈ ((View.whole main_v3_2).slice (win0_7.rect t)).set ↔ _
  rw [View.set_slice_whole, Rect.mem_set_unit]
  exact Iff.rfl

/-- The blocks tile the array: column r lies in the block of point r / 256 (below 40 since r < 10000), all 16 rows of
    which are inside the array and whose columns are 256 (r / 256) ≤ r < min (256 (r / 256) + 256) 10000. -/
theorem cover_7 (i : S16x10000.Idx) :
    ∃ t : Fin cfg0.N, (cfg0.win 7).flush t = true ∧ i ∈ ((cfg0.win 7).blk t).view.set := by
  have hi0 : (i 0).val < 16 := (i 0).isLt
  have hi1 : (i 1).val < 10000 := (i 1).isLt
  have ht : (i 1).val / 256 < 40 := by omega
  obtain ⟨e0, e1, x0, x1⟩ := idx_out7 ⟨(i 1).val / 256, ht⟩
  refine ⟨⟨(i 1).val / 256, ht⟩, flush0_7 _, ?_⟩
  rw [mem_blk_7]
  intro a
  match a with
  | ⟨0, _⟩ =>
    show win0_7.index ⟨(i 1).val / 256, ht⟩ (0 : Fin 2) * 16 ≤ (i 0).val
      ∧ (i 0).val < win0_7.index ⟨(i 1).val / 256, ht⟩ (0 : Fin 2) * 16
          + win0_7.xsize (grid0.coords ⟨(i 1).val / 256, ht⟩) (0 : Fin 2)
    omega
  | ⟨1, _⟩ =>
    show win0_7.index ⟨(i 1).val / 256, ht⟩ (1 : Fin 2) * 256 ≤ (i 1).val
      ∧ (i 1).val < win0_7.index ⟨(i 1).val / 256, ht⟩ (1 : Fin 2) * 256
          + win0_7.xsize (grid0.coords ⟨(i 1).val / 256, ht⟩) (1 : Fin 2)
    have e1' : win0_7.index ⟨(i 1).val / 256, ht⟩ (1 : Fin 2) = (i 1).val / 256 := e1
    have x1' : (i 1).val / 256 * 256 + win0_7.xsize (grid0.coords ⟨(i 1).val / 256, ht⟩) (1 : Fin 2)
        = min ((i 1).val / 256 * 256 + 256) 10000 := x1
    omega

/-- Every point writes its block of the deviation, feature major back and the blocks tile the array: after the run the array holds it. -/
theorem final_7 (c : Dev nD) : (dats m 0 c).arrAt 7 cfg0.N = SdTa m c :=
  (dats m 0 c).arrAt_eq_of_cover 7 (SdTa m c) (fun t _ => flushed_7 m c t) cover_7

end Cert.KernelIdeal.Hand

end
-- ==== Proof.KHost.lean ====
/-
  The host operations around the kernel's region, read entry by entry.

  Before the region the two weight matrices are laid side by side (columns 0..15 the first layer's, 16..31 the
  second's) and the two bias vectors one after the other, the latter then viewed as a column. After the region each
  of the three feature-major results is transposed back to sample-major form.
-/
import proofs.«156628_g73332271612656_cont_9to1c4b_773_27_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable {F : FTy → Type} [FloatOps F]

variable (m : (ℓ : Loc nD τ sig) → Buf (Elt F) ℓ)

/-! ## Before the region -/

/-- The weights the region finds are the two weight matrices side by side. -/
theorem V_wcat_eq (c : Dev nD) :
    (V m c main_v0 : S128x32.Idx → Elt F .f32)
      = concatenate S128x32 1 [⟨S128x16, (V m c main_arg2 : S128x16.Idx → Elt F .f32)⟩,
          ⟨S128x16, (V m c main_arg4 : S128x16.Idx → Elt F .f32)⟩] concatenates_S128x16_S128x16_S128x32_d1 := by
  rw [V_main_arg2, V_main_arg4]
  show StableHlo.after hostOps0 (fun b => m (c, b)) (Proc.devRef .tc main_v0) = _
  after_results

/-- The bias column the region finds is the two bias vectors one after the other, viewed as a column. -/
theorem V_bcat_eq (c : Dev nD) :
    (V m c main_v2 : S32x1.Idx → Elt F .f32)
      = shapeCast S32x1 (concatenate S32 0 [⟨S16, (V m c main_arg3 : S16.Idx → Elt F .f32)⟩,
          ⟨S16, (V m c main_arg5 : S16.Idx → Elt F .f32)⟩] concatenates_S16_S16_S32_d0) shapeCasts_S32_S32x1 := by
  rw [V_main_arg3, V_main_arg5]
  show StableHlo.after hostOps0 (fun b => m (c, b)) (Proc.devRef .tc main_v2) = _
  after_results
  rfl

/-- The concatenated weights the region finds: columns 0..15 are W1's, 16..31 are W2's. -/
theorem V_wcat_lo (c : Dev nD) (f : Fin 128) (j : Fin 16) :
    V m c main_v0 (ix2 f (⟨j.val, by omega⟩ : Fin 32)) = V m c main_arg2 (ix2 f j) := by
  refine (congrFun (V_wcat_eq m c) _).trans ?_
  exact concatenate_pair_apply_left (t := S128x32) (s₁ := S128x16) (s₂ := S128x16) 1 _ _
    concatenates_S128x16_S128x16_S128x32_d1 (ix2 f (⟨j.val, by omega⟩ : Fin 32)) rfl (ix2 f j)
    (fun b => match b with | ⟨0, _⟩ => rfl | ⟨1, _⟩ => rfl)

theorem V_wcat_hi (c : Dev nD) (f : Fin 128) (j : Fin 16) :
    V m c main_v0 (ix2 f (⟨16 + j.val, by omega⟩ : Fin 32)) = V m c main_arg4 (ix2 f j) := by
  refine (congrFun (V_wcat_eq m c) _).trans ?_
  exact concatenate_pair_apply_right (t := S128x32) (s₁ := S128x16) (s₂ := S128x16) 1 _ _
    concatenates_S128x16_S128x16_S128x32_d1 (ix2 f (⟨16 + j.val, by omega⟩ : Fin 32)) rfl rfl (ix2 f j)
    (fun b => match b with | ⟨0, _⟩ => fun _ => rfl | ⟨1, _⟩ => fun h => absurd rfl h)
    (by show j.val + 16 = 16 + j.val; omega)

/-- The bias column the region finds: rows 0..15 are b1, 16..31 are b2. -/
theorem V_bcat_lo (c : Dev nD) (j : Fin 16) :
    V m c main_v2 (ix2 (⟨j.val, by omega⟩ : Fin 32) (0 : Fin 1)) = V m c main_arg3 (ix1 j) := by
  refine (congrFun (V_bcat_eq m c) _).trans ?_
  refine (shapeCast_apply (s := S32) (t := S32x1) _ shapeCasts_S32_S32x1 (ix2 (⟨j.val, by omega⟩ : Fin 32) (0 : Fin 1))
    (ix1 (⟨j.val, by omega⟩ : Fin 32)) (by
      rw [Shape.rowMajor_val_two, Shape.rowMajor_val_one]
      show j.val = j.val * 1 + 0
      omega)).trans ?_
  exact concatenate_pair_apply_left (t := S32) (s₁ := S16) (s₂ := S16) 0 _ _
    concatenates_S16_S16_S32_d0 (ix1 (⟨j.val, by omega⟩ : Fin 32)) rfl (ix1 j)
    (fun b => match b with | ⟨0, _⟩ => rfl)

theorem V_bcat_hi (c : Dev nD) (j : Fin 16) :
    V m c main_v2 (ix2 (⟨16 + j.val, by omega⟩ : Fin 32) (0 : Fin 1)) = V m c main_arg5 (ix1 j) := by
  refine (congrFun (V_bcat_eq m c) _).trans ?_
  refine (shapeCast_apply (s := S32) (t := S32x1) _ shapeCasts_S32_S32x1 (ix2 (⟨16 + j.val, by omega⟩ : Fin 32) (0 : Fin 1))
    (ix1 (⟨16 + j.val, by omega⟩ : Fin 32)) (by
      rw [Shape.rowMajor_val_two, Shape.rowMajor_val_one]
      show 16 + j.val = (16 + j.val) * 1 + 0
      omega)).trans ?_
  exact concatenate_pair_apply_right (t := S32) (s₁ := S16) (s₂ := S16) 0 _ _
    concatenates_S16_S16_S32_d0 (ix1 (⟨16 + j.val, by omega⟩ : Fin 32)) rfl rfl (ix1 j)
    (fun b => match b with | ⟨0, _⟩ => fun h => absurd rfl h)
    (by show j.val + 16 = 16 + j.val; omega)

/-! ## After the region

Each result is the transpose of one of the kernel's result arrays as the run leaves it: the array of window 5 for the
first, of window 6 for the second, of window 7 for the third. -/

/-- The first result at row i, column j is the first result array at row j, column i. -/
theorem tail_v4 (dats : (p : Fin 1) → (c : Dev nD) → Dat τ (Elt F) Unit ℕ (UR sig nD τ) ℕ (cfgs p) c) (c : Dev nD)
    (i : Fin 10000) (j : Fin 16) :
    Pipeline.afterTail₀ cfgs dats 0 (V0 m) [hostOps1] c main_v4 (ix2 i j) = (dats 0 c).arrAt 5 cfg0.N (ix2 j i) := by
  have e : (Pipeline.afterTail₀ cfgs dats 0 (V0 m) [hostOps1] c main_v4 : S10000x16.Idx → Elt F .f32)
      = transpose S10000x16 [1, 0] ((dats 0 c).arrAt 5 cfg0.N : S16x10000.Idx → Elt F .f32)
          transposes_S16x10000_S10000x16_1_0 := by
    unfold Pipeline.afterTail₀
    show StableHlo.after hostOps1 _ (Proc.devRef .tc main_v4) = _
    after_results
    exact congrArg (fun x : S16x10000.Idx → Elt F .f32 => transpose S10000x16 [1, 0] x transposes_S16x10000_S10000x16_1_0)
      (Pipeline.withArrays_arr spec0 launch0.win.arr_inj c _ _ 5)
  exact (congrFun e _).trans (transpose_ix2_apply _ _ i j)

/-- The second result at row i, column j is the second result array at row j, column i. -/
theorem tail_v5 (dats : (p : Fin 1) → (c : Dev nD) → Dat τ (Elt F) Unit ℕ (UR sig nD τ) ℕ (cfgs p) c) (c : Dev nD)
    (i : Fin 10000) (j : Fin 16) :
    Pipeline.afterTail₀ cfgs dats 0 (V0 m) [hostOps1] c main_v5 (ix2 i j) = (dats 0 c).arrAt 6 cfg0.N (ix2 j i) := by
  have e : (Pipeline.afterTail₀ cfgs dats 0 (V0 m) [hostOps1] c main_v5 : S10000x16.Idx → Elt F .f32)
      = transpose S10000x16 [1, 0] ((dats 0 c).arrAt 6 cfg0.N : S16x10000.Idx → Elt F .f32)
          transposes_S16x10000_S10000x16_1_0 := by
    unfold Pipeline.afterTail₀
    show StableHlo.after hostOps1 _ (Proc.devRef .tc main_v5) = _
    after_results
    exact congrArg (fun x : S16x10000.Idx → Elt F .f32 => transpose S10000x16 [1, 0] x transposes_S16x10000_S10000x16_1_0)
      (Pipeline.withArrays_arr spec0 launch0.win.arr_inj c _ _ 6)
  exact (congrFun e _).trans (transpose_ix2_apply _ _ i j)

/-- The third result at row i, column j is the third result array at row j, column i. -/
theorem tail_v6 (dats : (p : Fin 1) → (c : Dev nD) → Dat τ (Elt F) Unit ℕ (UR sig nD τ) ℕ (cfgs p) c) (c : Dev nD)
    (i : Fin 10000) (j : Fin 16) :
    Pipeline.afterTail₀ cfgs dats 0 (V0 m) [hostOps1] c main_v6 (ix2 i j) = (dats 0 c).arrAt 7 cfg0.N (ix2 j i) := by
  have e : (Pipeline.afterTail₀ cfgs dats 0 (V0 m) [hostOps1] c main_v6 : S10000x16.Idx → Elt F .f32)
      = transpose S10000x16 [1, 0] ((dats 0 c).arrAt 7 cfg0.N : S16x10000.Idx → Elt F .f32)
          transposes_S16x10000_S10000x16_1_0 := by
    unfold Pipeline.afterTail₀
    show StableHlo.after hostOps1 _ (Proc.devRef .tc main_v6) = _
    after_results
    exact congrArg (fun x : S16x10000.Idx → Elt F .f32 => transpose S10000x16 [1, 0] x transposes_S16x10000_S10000x16_1_0)
      (Pipeline.withArrays_arr spec0 launch0.win.arr_inj c _ _ 7)
  exact (congrFun e _).trans (transpose_ix2_apply _ _ i j)

end Cert.KernelIdeal.Hand

end
-- ==== Proof.KCut.lean ====
/-
  What the three write-backs at point t write is block t of the specification's feature-major arrays.

  The scratch H holds x·[W1|W2]: its columns 0..15 are x·W1 and 16..31 are x·W2, since the concatenated weights'
  columns are W1's then W2's. The bias column is b1 then b2. Row i of the adjacency and noise buffers, for a row
  inside the array, is row 256 t + i of the arrays, whatever the rows past the array's end hold. So column i of each
  written block is row 256 t + i of the specification's mu, sd and z, and that is all a write-back moves.
-/
import proofs.«156628_g73332271612656_cont_9to1c4b_773_27_alg».proof.Proof.Gen.KernelIdeal.Frame
import proofs.«156628_g73332271612656_cont_9to1c4b_773_27_alg».proof.Proof.Gen.KernelIdeal.Skeleton
import proofs.«156628_g73332271612656_cont_9to1c4b_773_27_alg».proof.Proof.KData
import proofs.«156628_g73332271612656_cont_9to1c4b_773_27_alg».proof.Proof.KPay
import proofs.«156628_g73332271612656_cont_9to1c4b_773_27_alg».proof.Proof.KWin
import proofs.«156628_g73332271612656_cont_9to1c4b_773_27_alg».proof.Proof.KHost
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-- Columns 0..15 of the scratch are x·W1. -/
theorem Hs_lo (c : Dev nD) (k : Fin 10000) (j : Fin 16) :
    Hs m c (ix2 k ⟨j.val, by omega⟩) = Cert.Spec.xw (aX m c) (aW1 m c) k j := by
  unfold Hs; rw [pay1_apply]; unfold Cert.Spec.xw
  refine Finset.sum_congr rfl fun f _ => ?_
  rw [blkX_apply m c t0 k f, blkW_apply m c t0 f _, V_wcat_lo m c f j]

/-- Columns 16..31 are x·W2. -/
theorem Hs_hi (c : Dev nD) (k : Fin 10000) (j : Fin 16) :
    Hs m c (ix2 k ⟨16 + j.val, by omega⟩) = Cert.Spec.xw (aX m c) (aW2 m c) k j := by
  unfold Hs; rw [pay1_apply]; unfold Cert.Spec.xw
  refine Finset.sum_congr rfl fun f _ => ?_
  rw [blkX_apply m c t0 k f, blkW_apply m c t0 f _, V_wcat_hi m c f j]

/-- The bias column: b1, then b2. -/
theorem bias_lo (c : Dev nD) (t : Fin cfg0.N) (j : Fin 16) : blkB m c t (ix2 ⟨j.val, by omega⟩ 0) = ab1 m c (ix1 j) := by
  rw [blkB_apply m c t _, V_bcat_lo m c j]
theorem bias_hi (c : Dev nD) (t : Fin cfg0.N) (j : Fin 16) : blkB m c t (ix2 ⟨16 + j.val, by omega⟩ 0) = ab2 m c (ix1 j) := by
  rw [blkB_apply m c t _, V_bcat_hi m c j]

/-- Column i of the written blocks at point t is row 256 t + i of the specification. -/
theorem tile_at (c : Dev nD) (t : Fin cfg0.N) (d0 : Vec Ideal S256x10000 .f32) (d4 : Vec Ideal S256x16 .f32)
    (j : Fin 16) (i : Fin 256) (I : Fin 10000) (hI : I.val = 256 * t.val + i.val) :
    k0_pay3 (F := Ideal) (Hs m c) (bufAdj m c t d0) (blkB m c t) (ix2 j i) = Cert.Spec.mu (aAdj m c) (aX m c) (aW1 m c) (ab1 m c) I j
    ∧ k0_pay4 (F := Ideal) (Hs m c) (bufAdj m c t d0) (blkB m c t) (ix2 j i) = Cert.Spec.sd (aAdj m c) (aX m c) (aW2 m c) (ab2 m c) I j
    ∧ k0_pay5 (F := Ideal) (Hs m c) (bufAdj m c t d0) (blkB m c t) (bufEps m c t d4) (ix2 j i)
        = Cert.Spec.z (aAdj m c) (aX m c) (aW1 m c) (ab1 m c) (aW2 m c) (ab2 m c) (aEps m c) I j :=
  tile_row (aAdj m c) (aX m c) (aW1 m c) (ab1 m c) (aW2 m c) (ab2 m c) (aEps m c)
    (Hs m c) (bufAdj m c t d0) (blkB m c t) (bufEps m c t d4)
    (Hs_lo m c) (Hs_hi m c) (bias_lo m c t) (bias_hi m c t) i I
    (fun k => bufAdj_row m c t d0 i I hI k) (fun j' => bufEps_row m c t d4 i I hI j') j

theorem cut_pay5 (c : Dev nD) (t : Fin cfg0.N) (d0 : Vec Ideal S256x10000 .f32) (d4 : Vec Ideal S256x16 .f32) :
    (cfg0.win 5).cut (grid0.coords t) (k0_pay5 (F := Ideal) (Hs m c) (bufAdj m c t d0) (blkB m c t) (bufEps m c t d4))
      = ((cfg0.win 5).blk t).view.read (Elt Ideal) (ZTa m c) :=
  cut_read_5 c t _ _ fun j i I hI => (tile_at m c t d0 d4 j i I hI).2.2

theorem cut_pay3 (c : Dev nD) (t : Fin cfg0.N) (d0 : Vec Ideal S256x10000 .f32) :
    (cfg0.win 6).cut (grid0.coords t) (k0_pay3 (F := Ideal) (Hs m c) (bufAdj m c t d0) (blkB m c t))
      = ((cfg0.win 6).blk t).view.read (Elt Ideal) (MuTa m c) :=
  cut_read_6 c t _ _ fun j i I hI => (tile_at m c t d0 zf j i I hI).1

theorem cut_pay4 (c : Dev nD) (t : Fin cfg0.N) (d0 : Vec Ideal S256x10000 .f32) :
    (cfg0.win 7).cut (grid0.coords t) (k0_pay4 (F := Ideal) (Hs m c) (bufAdj m c t d0) (blkB m c t))
      = ((cfg0.win 7).blk t).view.read (Elt Ideal) (SdTa m c) :=
  cut_read_7 c t _ _ fun j i I hI => (tile_at m c t d0 zf j i I hI).2.1

end Cert.KernelIdeal.Hand

end
-- ==== Proof.KObl.lean ====
/-
  The body obligation of the pipeline at the ideal instance: at every grid point the body, run on the buffers the
  pipeline hands it, leaves each buffer at what the proof data say, and the scratch at H = x·[W1|W2].

  At the first point the scratch arrives at anything and leaves at H; at every later point it arrives at H and is
  only read. The adjacency and noise buffers arrive holding their block on the rows inside the array and anything
  below; the body only reads them. The three result buffers leave holding, on the columns inside the array, block t
  of the specification's arrays — the columns past the array's end hold values computed from the rows nothing
  names, which no write-back moves.
-/
import proofs.«156628_g73332271612656_cont_9to1c4b_773_27_alg».proof.Proof.Gen.KernelIdeal.Frame
import proofs.«156628_g73332271612656_cont_9to1c4b_773_27_alg».proof.Proof.Gen.KernelIdeal.Skeleton
import proofs.«156628_g73332271612656_cont_9to1c4b_773_27_alg».proof.Proof.KData
import proofs.«156628_g73332271612656_cont_9to1c4b_773_27_alg».proof.Proof.KRun
import proofs.«156628_g73332271612656_cont_9to1c4b_773_27_alg».proof.Proof.KCut
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt Ideal) ℓ)

local notation "𝕀" => MT nD τ sig Unit (Elt Ideal) ℕ (UR sig nD τ) ℕ

/-- The class invariant: the scratch at some contents, the generator register at some state. -/
theorem PhiA_eq (c : Dev nD) :
    (Pipeline.ΦA spec0 c : sProp 𝕀) = iprop(iprop((∃ d, owns (c : Thread nD τ) scM fullShare d)) ∗ (∃ r, prngReg c r)) := by
  unfold Pipeline.ΦA; rw [scopedRest0_eq]; simp only [scM, owns_whole]; try rfl

theorem Phi_castSucc_zero (c : Dev nD) (t : Fin cfg0.N) (h : t.val = 0) :
    (dats m 0 c).Φ t.castSucc = Pipeline.ΦA spec0 c := by
  dsimp only [dats]; unfold PhiH; rw [if_pos (by simpa using h)]
theorem Phi_castSucc_pos (c : Dev nD) (t : Fin cfg0.N) (h : t.val ≠ 0) :
    (dats m 0 c).Φ t.castSucc = iprop(owns (c : Thread nD τ) scM fullShare (Hs m c) ∗ (∃ r, prngReg c r)) := by
  dsimp only [dats]; unfold PhiH; rw [if_neg (by simpa using h)]
theorem Phi_succ (c : Dev nD) (t : Fin cfg0.N) :
    (dats m 0 c).Φ t.succ = iprop(owns (c : Thread nD τ) scM fullShare (Hs m c) ∗ (∃ r, prngReg c r)) := by
  dsimp only [dats]; unfold PhiH; rw [if_neg (by simp)]

/-- The obligation at the first point: the scratch arrives at anything and leaves at H. -/
theorem obligation_first (c : Dev nD) :
    iprop((dats m 0 c).Φ (t0 : Fin cfg0.N).castSucc ∗ (dats m 0 c).owesAt () (t0 : Fin cfg0.N).castSucc
        ∗ (∃ d, owns (c : Thread nD τ) (stage0_0 (cfg0.slots t0 0)) fullShare ((dats m 0 c).before 0 t0 d))
        ∗ (∃ d, owns (c : Thread nD τ) (stage0_1 (cfg0.slots t0 1)) fullShare ((dats m 0 c).before 1 t0 d))
        ∗ (∃ d, owns (c : Thread nD τ) (stage0_2 (cfg0.slots t0 2)) fullShare ((dats m 0 c).before 2 t0 d))
        ∗ (∃ d, owns (c : Thread nD τ) (stage0_3 (cfg0.slots t0 3)) fullShare ((dats m 0 c).before 3 t0 d))
        ∗ (∃ d, owns (c : Thread nD τ) (stage0_4 (cfg0.slots t0 4)) fullShare ((dats m 0 c).before 4 t0 d))
        ∗ (∃ d, owns (c : Thread nD τ) (stage0_5 (cfg0.slots t0 5)) fullShare ((dats m 0 c).before 5 t0 d))
        ∗ (∃ d, owns (c : Thread nD τ) (stage0_6 (cfg0.slots t0 6)) fullShare ((dats m 0 c).before 6 t0 d))
        ∗ (∃ d, owns (c : Thread nD τ) (stage0_7 (cfg0.slots t0 7)) fullShare ((dats m 0 c).before 7 t0 d)))
      ⊢ wp frame (wpE (defs₀ (F := Ideal)) Variants.none c none) Set.univ (bodyAt0 t0) fun _ =>
          iprop((dats m 0 c).Φ (t0 : Fin cfg0.N).succ ∗ (dats m 0 c).owesAt () (t0 : Fin cfg0.N).succ
            ∗ (∃ d, owns (c : Thread nD τ) (stage0_0 (cfg0.slots t0 0)) fullShare ((win0 0).fill (grid0.coords t0) d ((win0 0).cut (grid0.coords t0) ((dats m 0 c).after 0 t0))))
            ∗ owns (c : Thread nD τ) (stage0_1 (cfg0.slots t0 1)) fullShare ((dats m 0 c).after 1 t0)
            ∗ owns (c : Thread nD τ) (stage0_2 (cfg0.slots t0 2)) fullShare ((dats m 0 c).after 2 t0)
            ∗ owns (c : Thread nD τ) (stage0_3 (cfg0.slots t0 3)) fullShare ((dats m 0 c).after 3 t0)
            ∗ (∃ d, owns (c : Thread nD τ) (stage0_4 (cfg0.slots t0 4)) fullShare ((win0 4).fill (grid0.coords t0) d ((win0 4).cut (grid0.coords t0) ((dats m 0 c).after 4 t0))))
            ∗ (∃ d, owns (c : Thread nD τ) (stage0_5 (cfg0.slots t0 5)) fullShare ((win0 5).fill (grid0.coords t0) d ((win0 5).cut (grid0.coords t0) ((dats m 0 c).after 5 t0))))
            ∗ (∃ d, owns (c : Thread nD τ) (stage0_6 (cfg0.slots t0 6)) fullShare ((win0 6).fill (grid0.coords t0) d ((win0 6).cut (grid0.coords t0) ((dats m 0 c).after 6 t0))))
            ∗ (∃ d, owns (c : Thread nD τ) (stage0_7 (cfg0.slots t0 7)) fullShare ((win0 7).fill (grid0.coords t0) d ((win0 7).cut (grid0.coords t0) ((dats m 0 c).after 7 t0))))) := by
  rw [Phi_castSucc_zero m c t0 rfl, Phi_succ, PhiA_eq,
    show (dats m 0 c).owesAt () (t0 : Fin cfg0.N).succ = (dats m 0 c).owesAt () (t0 : Fin cfg0.N).castSucc from rfl]
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before_0 m c t0 d0, before_1 m c t0 d1, before_2 m c t0 d2, before_3 m c t0 d3, before_4 m c t0 d4,
    before_5 m c t0 d5, before_6 m c t0 d6, before_7 m c t0 d7]
  iapply (run_first (F := Ideal) c (grid0.coords t0)
    (win0_0.stage (cfg0.slots t0 0)) (hstage0_0 ((cfg0.slots t0 0).cast nbuf0_0)) (win0_1.stage (cfg0.slots t0 1)) (hstage0_1 ((cfg0.slots t0 1).cast nbuf0_1)) (win0_2.stage (cfg0.slots t0 2)) (hstage0_2 ((cfg0.slots t0 2).cast nbuf0_2)) (win0_3.stage (cfg0.slots t0 3)) (hstage0_3 ((cfg0.slots t0 3).cast nbuf0_3)) (win0_4.stage (cfg0.slots t0 4)) (hstage0_4 ((cfg0.slots t0 4).cast nbuf0_4)) (win0_5.stage (cfg0.slots t0 5)) (hstage0_5 ((cfg0.slots t0 5).cast nbuf0_5)) (win0_6.stage (cfg0.slots t0 6)) (hstage0_6 ((cfg0.slots t0 6).cast nbuf0_6)) (win0_7.stage (cfg0.slots t0 7)) (hstage0_7 ((cfg0.slots t0 7).cast nbuf0_7)) scM (Memref.isWhole_whole _)
    ((hcond0 t0).mpr rfl) (bufAdj m c t0 d0) (blkX m c t0) (blkW m c t0) (blkB m c t0) (bufEps m c t0 d4) Set.univ _)
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  isplitl [H7]; · iexists d7; iexact H7
  isplitl [HS]; · iexists ds; iexact HS
  iintro ⟨H0, H1, H2, H3, H4, H5, H6, H7, HS⟩
  isplitl [HS Hg]
  · isplitl [HS]; · iexact HS
    iexact Hg
  isplitl [Ho]; · iexact Ho
  -- hand the buffers back: the two clipped inputs as they were found, the whole inputs at their blocks, the three
  -- results at what was written, which on the columns inside the array is block t of the specification
  have e0 : (win0 0).cut (grid0.coords t0) ((dats m 0 c).after 0 t0) = iblk m c 0 t0 := by
    rw [after_0]; exact (cfg0.win 0).cut_fill _ _ _
  have e4 : (win0 4).cut (grid0.coords t0) ((dats m 0 c).after 4 t0) = iblk m c 4 t0 := by
    rw [after_4]; exact (cfg0.win 4).cut_fill _ _ _
  have e5 : (win0 5).cut (grid0.coords t0) ((dats m 0 c).after 5 t0) = ((cfg0.win 5).blk t0).view.read (Elt Ideal) (ZTa m c) := flushed_5 m c t0
  have e6 : (win0 6).cut (grid0.coords t0) ((dats m 0 c).after 6 t0) = ((cfg0.win 6).blk t0).view.read (Elt Ideal) (MuTa m c) := flushed_6 m c t0
  have e7 : (win0 7).cut (grid0.coords t0) ((dats m 0 c).after 7 t0) = ((cfg0.win 7).blk t0).view.read (Elt Ideal) (SdTa m c) := flushed_7 m c t0
  rw [e0, e4, e5, e6, e7, after_1, after_2, after_3]
  isplitl [H0]
  · iexists d0; iexact H0
  isplitl [H1]; · iexact H1
  isplitl [H2]; · iexact H2
  isplitl [H3]; · iexact H3
  isplitl [H4]
  · iexists d4; iexact H4
  isplitl [H5]
  · iexists (k0_pay5 (F := Ideal) (Hs m c) (bufAdj m c t0 d0) (blkB m c t0) (bufEps m c t0 d4))
    rw [← cut_pay5 m c t0 d0 d4, (cfg0.win 5).fill_cut]; iexact H5
  isplitl [H6]
  · iexists (k0_pay3 (F := Ideal) (Hs m c) (bufAdj m c t0 d0) (blkB m c t0))
    rw [← cut_pay3 m c t0 d0, (cfg0.win 6).fill_cut]; iexact H6
  · iexists (k0_pay4 (F := Ideal) (Hs m c) (bufAdj m c t0 d0) (blkB m c t0))
    rw [← cut_pay4 m c t0 d0, (cfg0.win 7).fill_cut]; iexact H7

/-- The obligation at a later point: the scratch arrives at H and is only read. -/
theorem obligation_later (c : Dev nD) (t : Fin cfg0.N) (h0 : t.val ≠ 0) :
    iprop((dats m 0 c).Φ (t : Fin cfg0.N).castSucc ∗ (dats m 0 c).owesAt () (t : Fin cfg0.N).castSucc
        ∗ (∃ d, owns (c : Thread nD τ) (stage0_0 (cfg0.slots t 0)) fullShare ((dats m 0 c).before 0 t d))
        ∗ (∃ d, owns (c : Thread nD τ) (stage0_1 (cfg0.slots t 1)) fullShare ((dats m 0 c).before 1 t d))
        ∗ (∃ d, owns (c : Thread nD τ) (stage0_2 (cfg0.slots t 2)) fullShare ((dats m 0 c).before 2 t d))
        ∗ (∃ d, owns (c : Thread nD τ) (stage0_3 (cfg0.slots t 3)) fullShare ((dats m 0 c).before 3 t d))
        ∗ (∃ d, owns (c : Thread nD τ) (stage0_4 (cfg0.slots t 4)) fullShare ((dats m 0 c).before 4 t d))
        ∗ (∃ d, owns (c : Thread nD τ) (stage0_5 (cfg0.slots t 5)) fullShare ((dats m 0 c).before 5 t d))
        ∗ (∃ d, owns (c : Thread nD τ) (stage0_6 (cfg0.slots t 6)) fullShare ((dats m 0 c).before 6 t d))
        ∗ (∃ d, owns (c : Thread nD τ) (stage0_7 (cfg0.slots t 7)) fullShare ((dats m 0 c).before 7 t d)))
      ⊢ wp frame (wpE (defs₀ (F := Ideal)) Variants.none c none) Set.univ (bodyAt0 t) fun _ =>
          iprop((dats m 0 c).Φ (t : Fin cfg0.N).succ ∗ (dats m 0 c).owesAt () (t : Fin cfg0.N).succ
            ∗ (∃ d, owns (c : Thread nD τ) (stage0_0 (cfg0.slots t 0)) fullShare ((win0 0).fill (grid0.coords t) d ((win0 0).cut (grid0.coords t) ((dats m 0 c).after 0 t))))
            ∗ owns (c : Thread nD τ) (stage0_1 (cfg0.slots t 1)) fullShare ((dats m 0 c).after 1 t)
            ∗ owns (c : Thread nD τ) (stage0_2 (cfg0.slots t 2)) fullShare ((dats m 0 c).after 2 t)
            ∗ owns (c : Thread nD τ) (stage0_3 (cfg0.slots t 3)) fullShare ((dats m 0 c).after 3 t)
            ∗ (∃ d, owns (c : Thread nD τ) (stage0_4 (cfg0.slots t 4)) fullShare ((win0 4).fill (grid0.coords t) d ((win0 4).cut (grid0.coords t) ((dats m 0 c).after 4 t))))
            ∗ (∃ d, owns (c : Thread nD τ) (stage0_5 (cfg0.slots t 5)) fullShare ((win0 5).fill (grid0.coords t) d ((win0 5).cut (grid0.coords t) ((dats m 0 c).after 5 t))))
            ∗ (∃ d, owns (c : Thread nD τ) (stage0_6 (cfg0.slots t 6)) fullShare ((win0 6).fill (grid0.coords t) d ((win0 6).cut (grid0.coords t) ((dats m 0 c).after 6 t))))
            ∗ (∃ d, owns (c : Thread nD τ) (stage0_7 (cfg0.slots t 7)) fullShare ((win0 7).fill (grid0.coords t) d ((win0 7).cut (grid0.coords t) ((dats m 0 c).after 7 t))))) := by
  rw [Phi_castSucc_pos m c t h0, Phi_succ,
    show (dats m 0 c).owesAt () t.succ = (dats m 0 c).owesAt () t.castSucc from rfl]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before_0 m c t d0, before_1 m c t d1, before_2 m c t d2, before_3 m c t d3, before_4 m c t d4,
    before_5 m c t d5, before_6 m c t d6, before_7 m c t d7]
  iapply (run_later (F := Ideal) c (grid0.coords t)
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scM (Memref.isWhole_whole _)
    (fun h => h0 ((hcond0 t).mp h)) (bufAdj m c t d0) (blkB m c t) (bufEps m c t d4) (Hs m c) Set.univ _)
  isplitl [H0]; · iexact H0
  isplitl [H3]; · iexact H3
  isplitl [H4]; · iexact H4
  isplitl [H5]; · iexists d5; iexact H5
  isplitl [H6]; · iexists d6; iexact H6
  isplitl [H7]; · iexists d7; iexact H7
  isplitl [HS]; · iexact HS
  iintro ⟨H0, H3, H4, H5, H6, H7, HS⟩
  isplitl [HS Hg]
  · isplitl [HS]; · iexact HS
    iexact Hg
  isplitl [Ho]; · iexact Ho
  -- hand the buffers back: the two clipped inputs as they were found, the whole inputs at their blocks, the three
  -- results at what was written, which on the columns inside the array is block t of the specification
  have e0 : (win0 0).cut (grid0.coords t) ((dats m 0 c).after 0 t) = iblk m c 0 t := by
    rw [after_0]; exact (cfg0.win 0).cut_fill _ _ _
  have e4 : (win0 4).cut (grid0.coords t) ((dats m 0 c).after 4 t) = iblk m c 4 t := by
    rw [after_4]; exact (cfg0.win 4).cut_fill _ _ _
  have e5 : (win0 5).cut (grid0.coords t) ((dats m 0 c).after 5 t) = ((cfg0.win 5).blk t).view.read (Elt Ideal) (ZTa m c) := flushed_5 m c t
  have e6 : (win0 6).cut (grid0.coords t) ((dats m 0 c).after 6 t) = ((cfg0.win 6).blk t).view.read (Elt Ideal) (MuTa m c) := flushed_6 m c t
  have e7 : (win0 7).cut (grid0.coords t) ((dats m 0 c).after 7 t) = ((cfg0.win 7).blk t).view.read (Elt Ideal) (SdTa m c) := flushed_7 m c t
  rw [e0, e4, e5, e6, e7, after_1, after_2, after_3]
  isplitl [H0]
  · iexists d0; iexact H0
  isplitl [H1]; · iexact H1
  isplitl [H2]; · iexact H2
  isplitl [H3]; · iexact H3
  isplitl [H4]
  · iexists d4; iexact H4
  isplitl [H5]
  · iexists (k0_pay5 (F := Ideal) (Hs m c) (bufAdj m c t d0) (blkB m c t) (bufEps m c t d4))
    rw [← cut_pay5 m c t d0 d4, (cfg0.win 5).fill_cut]; iexact H5
  isplitl [H6]
  · iexists (k0_pay3 (F := Ideal) (Hs m c) (bufAdj m c t d0) (blkB m c t))
    rw [← cut_pay3 m c t d0, (cfg0.win 6).fill_cut]; iexact H6
  · iexists (k0_pay4 (F := Ideal) (Hs m c) (bufAdj m c t d0) (blkB m c t))
    rw [← cut_pay4 m c t d0, (cfg0.win 7).fill_cut]; iexact H7

/-- The body obligation, every point. -/
theorem body_obligation (c : Dev nD) : BodyObligationLoose (dats m 0 c) (defs₀ (F := Ideal)) Variants.none () Set.univ := fun t => by
  rw [bigSep_W0, bigSep_W0]
  by_cases h0 : t.val = 0
  · obtain rfl : t = t0 := Fin.ext h0
    exact obligation_first m c
  · exact obligation_later m c t h0

end Cert.KernelIdeal.Hand

end
-- ==== Proof.KLaunch.lean ====
/-
  The run of the idealized program: the pipeline launched with the proof data, around the region the host lines
  before and after it. Every array of the pipeline ends at what the proof data compute (an input unchanged, a result
  array overwritten block by block by what each point wrote back), every other buffer at what the host lines leave.
  The frame of the idealized program is this run read at the seven arguments.
-/
import proofs.«156628_g73332271612656_cont_9to1c4b_773_27_alg».proof.Proof.Gen.KernelIdeal.Frame
import proofs.«156628_g73332271612656_cont_9to1c4b_773_27_alg».proof.Proof.Gen.KernelIdeal.Skeleton
import proofs.«156628_g73332271612656_cont_9to1c4b_773_27_alg».proof.Proof.KObl
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

local notation "𝕀" => MT nD τ sig Unit (Elt Ideal) ℕ (UR sig nD τ) ℕ

/-- Entering the region the scratch holds anything: the invariant before the first point. -/
theorem hin (c : Dev nD) : Pipeline.ΦA spec0 c ⊢ (dats m 0 c).Φ 0 := by
  rw [show (dats m 0 c).Φ 0 = Pipeline.ΦA spec0 c from by dsimp only [dats]; unfold PhiH; rw [if_pos (by simp)]]

/-- Leaving it the scratch holds H, which is some contents. -/
theorem hout (c : Dev nD) : (dats m 0 c).Φ (Fin.last cfg0.N) ⊢ Pipeline.ΦA spec0 c := by
  rw [show (dats m 0 c).Φ (Fin.last cfg0.N) = iprop(owns (c : Thread nD τ) scM fullShare (Hs m c) ∗ (∃ r, prngReg c r)) from by
    dsimp only [dats]; unfold PhiH; rw [if_neg (by rw [Fin.val_last]; have : cfg0.N = 40 := N_0; omega)], PhiA_eq]
  iintro ⟨HS, Hg⟩
  isplitl [HS]
  · iexists _; iexact HS
  iexact Hg

-- the launch theorem's implicit arguments are found by unifying its conclusion with this one, which takes unfolding
-- plain definitions in a metavariable's type
set_option backward.isDefEq.respectTransparency.types false in
/-- Every weakly fair execution of the idealized program terminates, every array of the pipeline at what the proof data
    compute and every other unscoped buffer as the lines after the region leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Hand

end
-- ==== Proof.KFinal.lean ====
/-
  The idealized program's results. After the three transposes that follow the region, the program's three results
  are the specification's z, mu and sd of the launch memory's arguments: the region leaves the feature-major arrays
  (each result block written back tiles its array), and the transposes flip them back.
-/
import proofs.«156628_g73332271612656_cont_9to1c4b_773_27_alg».proof.Proof.Gen.KernelIdeal.Frame
import proofs.«156628_g73332271612656_cont_9to1c4b_773_27_alg».proof.Proof.Gen.KernelIdeal.Skeleton
import proofs.«156628_g73332271612656_cont_9to1c4b_773_27_alg».proof.Proof.KLaunch
import proofs.«156628_g73332271612656_cont_9to1c4b_773_27_alg».proof.Proof.KHost
import proofs.«156628_g73332271612656_cont_9to1c4b_773_27_alg».proof.Proof.KWin
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The arguments as the region finds them are the launch memory's: no host line before the region writes them. -/
theorem args_eq (c : Dev nD) :
    aAdj m c = m ((c.tc : Thread nD τ).loc main_arg1) ∧ aX m c = m ((c.tc : Thread nD τ).loc main_arg0)
    ∧ aW1 m c = m ((c.tc : Thread nD τ).loc main_arg2) ∧ ab1 m c = m ((c.tc : Thread nD τ).loc main_arg3)
    ∧ aW2 m c = m ((c.tc : Thread nD τ).loc main_arg4) ∧ ab2 m c = m ((c.tc : Thread nD τ).loc main_arg5)
    ∧ aEps m c = m ((c.tc : Thread nD τ).loc main_arg6) :=
  ⟨V_main_arg1 m c, V_main_arg0 m c, V_main_arg2 m c, V_main_arg3 m c, V_main_arg4 m c, V_main_arg5 m c, V_main_arg6 m c⟩

/-- The first result: z. -/
theorem res_z (c : Dev nD) :
    (Pipeline.afterTail₀ cfgs (dats m) 0 (V0 m) [hostOps1] c main_v4 : S10000x16.Idx → Elt Ideal .f32)
      = Cert.Spec.Z (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  obtain ⟨e1, e0, e2, e3, e4, e5, e6⟩ := args_eq m c
  rw [← e1, ← e0, ← e2, ← e3, ← e4, ← e5, ← e6]
  funext y
  obtain ⟨i, j, rfl⟩ : ∃ (i : Fin 10000) (j : Fin 16), y = ix2 i j := ⟨y 0, y 1, eq_ix2 y⟩
  rw [tail_v4 m (dats m) c i j, final_5 m c]
  rfl

/-- The second result: mu. -/
theorem res_mu (c : Dev nD) :
    (Pipeline.afterTail₀ cfgs (dats m) 0 (V0 m) [hostOps1] c main_v5 : S10000x16.Idx → Elt Ideal .f32)
      = Cert.Spec.Mu (m ((c.tc : Thread nD τ).loc main_arg1)) (m ((c.tc : Thread nD τ).loc main_arg0)) (m ((c.tc : Thread nD τ).loc main_arg2)) (m ((c.tc : Thread nD τ).loc main_arg3)) := by
  obtain ⟨e1, e0, e2, e3, e4, e5, e6⟩ := args_eq m c
  rw [← e1, ← e0, ← e2, ← e3]
  funext y
  obtain ⟨i, j, rfl⟩ : ∃ (i : Fin 10000) (j : Fin 16), y = ix2 i j := ⟨y 0, y 1, eq_ix2 y⟩
  rw [tail_v5 m (dats m) c i j, final_6 m c]
  rfl

/-- The third result: sd. -/
theorem res_sd (c : Dev nD) :
    (Pipeline.afterTail₀ cfgs (dats m) 0 (V0 m) [hostOps1] c main_v6 : S10000x16.Idx → Elt Ideal .f32)
      = Cert.Spec.Sd (m ((c.tc : Thread nD τ).loc main_arg1)) (m ((c.tc : Thread nD τ).loc main_arg0)) (m ((c.tc : Thread nD τ).loc main_arg4)) (m ((c.tc : Thread nD τ).loc main_arg5)) := by
  obtain ⟨e1, e0, e2, e3, e4, e5, e6⟩ := args_eq m c
  rw [← e1, ← e0, ← e4, ← e5]
  funext y
  obtain ⟨i, j, rfl⟩ : ∃ (i : Fin 10000) (j : Fin 16), y = ix2 i j := ⟨y 0, y 1, eq_ix2 y⟩
  rw [tail_v6 m (dats m) c i j, final_7 m c]
  rfl

/-- The idealized program's run with its three results named, the seven arguments unchanged. -/
theorem kernel_run : θ_run defs (onTc (τ := τ) (main (F := Ideal))) ⟨m, fun _ => 0, ρ⟩ (fun r => ∀ c : Dev nD,
      r.2.mem ((c.tc : Thread nD τ).loc main_v4) = Cert.Spec.Z (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v5) = Cert.Spec.Mu (m ((c.tc : Thread nD τ).loc main_arg1)) (m ((c.tc : Thread nD τ).loc main_arg0)) (m ((c.tc : Thread nD τ).loc main_arg2)) (m ((c.tc : Thread nD τ).loc main_arg3))
      ∧ r.2.mem ((c.tc : Thread nD τ).loc main_v6) = Cert.Spec.Sd (m ((c.tc : Thread nD τ).loc main_arg1)) (m ((c.tc : Thread nD τ).loc main_arg0)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v4 (Pipeline.mem_restRefs_of main_v4 (by decide) (by decide))).trans (res_z m c),
      ((h c).2 main_v5 (Pipeline.mem_restRefs_of main_v5 (by decide) (by decide))).trans (res_mu m c),
      ((h c).2 main_v6 (Pipeline.mem_restRefs_of main_v6 (by decide) (by decide))).trans (res_sd m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 4).trans (((dats m 0 c).arrAt_in 4 rfl _).trans ((A_eq m c 4).trans (V_main_arg6 m c)))⟩)
    (run_main m ρ)

/-- The idealized program's frame. -/
theorem frame_ki : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.RefValue.lean ====
/-
  The reference program's three results, entry by entry, are the specification's z, mu and sd.
-/
import proofs.«156628_g73332271612656_cont_9to1c4b_773_27_alg».proof.Proof.Gen.ReferenceIdeal.Run
import proofs.«156628_g73332271612656_cont_9to1c4b_773_27_alg».proof.Proof.Gen.ReferenceIdeal.Read
import proofs.«156628_g73332271612656_cont_9to1c4b_773_27_alg».proof.Proof.Spec
import proofs.«156628_g73332271612656_cont_9to1c4b_773_27_alg».proof.Proof.LibPlainDot

noncomputable section

namespace Cert.RefProof

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The index functions of the two products, by coordinates

  The product x W reads x at (k, f) and W at (f, q); the product adj (x W) reads adj at (p, k) and x W at (k, q). -/

theorem lidx_xw (k : Fin 10000) (q : Fin 16) (f : Fin 128) : lidx_main_v0 (ix2 k q) f = ix2 k f :=
  funext fun a => match a with | ⟨0, _⟩ => rfl | ⟨1, _⟩ => rfl

theorem ridx_xw (k : Fin 10000) (q : Fin 16) (f : Fin 128) : ridx_main_v0 (ix2 k q) f = ix2 f q :=
  funext fun a => match a with | ⟨0, _⟩ => rfl | ⟨1, _⟩ => rfl

theorem lidx_adj (p : Fin 10000) (q : Fin 16) (k : Fin 10000) : lidx_main_v1 (ix2 p q) k = ix2 p k :=
  funext fun a => match a with | ⟨0, _⟩ => rfl | ⟨1, _⟩ => rfl

theorem ridx_adj (p : Fin 10000) (q : Fin 16) (k : Fin 10000) : ridx_main_v1 (ix2 p q) k = ix2 k q :=
  funext fun a => match a with | ⟨0, _⟩ => rfl | ⟨1, _⟩ => rfl

/-- The bias row, broadcast to [1, 16] and then to [10000, 16], read at (p, q), is the bias at q. -/
theorem bias_apply (b : FVec Ideal S16 .f32) (p : Fin 10000) (q : Fin 16) :
    val_main_v3 (F := Ideal) b (ix2 p q) = b (ix1 q) := by
  rw [val_main_v3_apply, val_main_v2_apply]
  exact congrArg b (funext fun a => match a with | ⟨0, _⟩ => rfl)

/-! ## The stages, entry by entry -/

variable (adj : FVec Ideal S10000x10000 .f32) (x : FVec Ideal S10000x128 .f32) (W : FVec Ideal S128x16 .f32)
  (b : FVec Ideal S16 .f32)

/-- The first product at (k, q) is the specification's (x W)[k, q]. -/
theorem xw_apply (k : Fin 10000) (q : Fin 16) : val_main_v0 (F := Ideal) x W (ix2 k q) = Cert.Spec.xw x W k q := by
  rw [val_main_v0_apply]
  unfold Cert.Spec.xw
  refine Finset.sum_congr rfl fun f _ => ?_
  rw [lidx_xw, ridx_xw]

/-- The pre-activation at (p, q): the second product plus the bias. -/
theorem pre_apply (p : Fin 10000) (q : Fin 16) :
    val_main_v4 (F := Ideal) x adj W b (ix2 p q) = Cert.Spec.pre adj x W b p q := by
  rw [val_main_v4_apply, val_main_v1_apply, bias_apply, Ideal.addf_def]
  unfold Cert.Spec.pre
  refine congrArg (· + b (ix1 q)) (Finset.sum_congr rfl fun k _ => ?_)
  rw [lidx_adj, ridx_adj, xw_apply]

/-- The clamped pre-activation at (p, q): the maximum with the zero constant. -/
theorem relu_apply (p : Fin 10000) (q : Fin 16) :
    val_main_v5 (F := Ideal) x adj W b (ix2 p q) = max (Cert.Spec.pre adj x W b p q) 0 := by
  rw [val_main_v5_apply, pre_apply, val_main_call0_v0_apply, val_main_call0_cst_apply, Ideal.maximumf_def]
  exact congrArg (max _) Ideal.ofBits_zero_f32

/-- The second branch's clamped pre-activation is the same function, of the second weights and bias. -/
theorem relu2_eq : val_main_v11 (F := Ideal) x adj W b = val_main_v5 (F := Ideal) x adj W b := rfl

/-! ## The three results -/

variable (W1 W2 : FVec Ideal S128x16 .f32) (b1 b2 : FVec Ideal S16 .f32) (eps : FVec Ideal S10000x16 .f32)

/-- The mean. -/
theorem result_mu : val_main_v5 (F := Ideal) x adj W1 b1 = Cert.Spec.Mu adj x W1 b1 := by
  funext i
  obtain ⟨p, q, rfl⟩ : ∃ (p : Fin 10000) (q : Fin 16), i = ix2 p q := ⟨i 0, i 1, eq_ix2 i⟩
  rw [relu_apply]
  rfl

/-- The standard deviation: the host's square root of its exponential, both the extended reals' own. -/
theorem result_sd : val_main_v13 (F := Ideal) x adj W2 b2 = Cert.Spec.Sd adj x W2 b2 := by
  funext i
  obtain ⟨p, q, rfl⟩ : ∃ (p : Fin 10000) (q : Fin 16), i = ix2 p q := ⟨i 0, i 1, eq_ix2 i⟩
  rw [val_main_v13_apply, val_main_v12_apply, relu2_eq, relu_apply, Ideal.hostUnary_sqrt_def, Ideal.hostUnary_exp_def]
  rfl

/-- The sample: the mean plus the deviation times the noise. -/
theorem result_z : val_main_v15 (F := Ideal) x adj W1 b1 W2 b2 eps = Cert.Spec.Z adj x W1 b1 W2 b2 eps := by
  funext i
  obtain ⟨p, q, rfl⟩ : ∃ (p : Fin 10000) (q : Fin 16), i = ix2 p q := ⟨i 0, i 1, eq_ix2 i⟩
  rw [val_main_v15_apply, val_main_v14_apply, result_mu, result_sd, Ideal.addf_def, Ideal.mulf_def]
  rfl

/-! ## The reference's run, with its results named by the specification -/

open Cert.ReferenceIdeal in
/-- Every weakly fair execution of the reference ends with z, mu and sd of the arguments in its three result
    buffers and the seven arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15) = Cert.Spec.Z (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v5) = Cert.Spec.Mu (m ((c.tc : Thread nD τ).loc main_arg1)) (m ((c.tc : Thread nD τ).loc main_arg0)) (m ((c.tc : Thread nD τ).loc main_arg2)) (m ((c.tc : Thread nD τ).loc main_arg3))
      ∧ r.2.mem ((c.tc : Thread nD τ).loc main_v13) = Cert.Spec.Sd (m ((c.tc : Thread nD τ).loc main_arg1)) (m ((c.tc : Thread nD τ).loc main_arg0)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun _ h c =>
    ⟨(h c).1.trans ((val_main_v15_eq _ _ _ _ _ _ _).trans (result_z _ _ _ _ _ _ _)),
      (h c).2.1.trans ((val_main_v5_eq _ _ _ _).trans (result_mu _ _ _ _)),
      (h c).2.2.1.trans ((val_main_v13_eq _ _ _ _).trans (result_sd _ _ _ _)),
      (h c).2.2.2⟩) (Cert.ReferenceIdeal.Value.run (F := Ideal) m ρ)

end Cert.RefProof

end
-- ==== Proof.lean ====
/-
  The certificate's claims.

  The kernel computes, one block of 256 adjacency rows at a time, z = mu + sd * eps with mu = max(adj (x W1) + b1, 0)
  and sd = exp(max(adj (x W2) + b2, 0) / 2), from H = x [W1 | W2] kept in a scratch since the first block, and writes
  the results feature-major; three transposes flip them back. The reference computes mu and sd = sqrt(exp(max(adj (x W2)
  + b2, 0))) with two separate products. On the extended reals the two agree entry by entry: the products differ in
  the order of the factors under the same sum, and exp(v / 2) = sqrt(exp v) for every extended real v. No hypothesis
  on the inputs is used.

  The last adjacency, noise and result blocks overhang their arrays. The rows of the adjacency and noise buffers past
  the array's end hold words nothing names; they reach only result columns past the array's end, which no write-back
  moves. For the word-level program, whose matrix product is opaque, the result buffers' contents are therefore not
  named at all: its frame needs only that the body runs and leaves its inputs as they were.

  The idealization changed no operation: the claim that it is sanctioned is trivial.
-/
import proofs.«156628_g73332271612656_cont_9to1c4b_773_27_alg».proof.Defs
import proofs.«156628_g73332271612656_cont_9to1c4b_773_27_alg».proof.Proof.Gen.Kernel
import proofs.«156628_g73332271612656_cont_9to1c4b_773_27_alg».proof.Proof.Gen.KernelIdeal
import proofs.«156628_g73332271612656_cont_9to1c4b_773_27_alg».proof.Proof.Gen.ReferenceIdeal
import proofs.«156628_g73332271612656_cont_9to1c4b_773_27_alg».proof.Proof.Gen.Pre_finite_inputs
import proofs.«156628_g73332271612656_cont_9to1c4b_773_27_alg».proof.Proof.BFrame
import proofs.«156628_g73332271612656_cont_9to1c4b_773_27_alg».proof.Proof.KFinal
import proofs.«156628_g73332271612656_cont_9to1c4b_773_27_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_p : Cert.frame_Kernel := Cert.Kernel.Hand.frame_kernel

/-- So does the idealized program. -/
theorem frame_pi : Cert.frame_KernelIdeal := fun m ρ _ => Cert.KernelIdeal.Hand.frame_ki m ρ

/-- And the reference: its run with the results dropped. -/
theorem frame_ri : Cert.frame_ReferenceIdeal := fun m ρ _ =>
  (θ_run Cert.ReferenceIdeal.defs _ _).mono (fun _ h c => (h c).2.2.2) (Cert.RefProof.run_spec m ρ)

/-- Both idealized programs end with the specification's z, mu and sd of the arguments. -/
theorem algebraic : Cert.algebraic_KernelIdeal_ReferenceIdeal := by
  intro m ρ m' ρ' _ hagree
  refine ⟨fun c => Cert.Spec.Z (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.Mu (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Spec.Sd (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.kernel_run m ρ, ?_⟩
  refine (θ_run Cert.ReferenceIdeal.defs _ _).mono (fun _ h c => ?_) (Cert.RefProof.run_spec m' ρ')
  obtain ⟨a0, a1, a2, a3, a4, a5, a6⟩ := hagree c
  dsimp only
  rw [← a0, ← a1, ← a2, ← a3, ← a4, ← a5, ← a6]
  exact h c

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
